-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S400000x128 : Shape := ⟨2, ![400000, 128]⟩
abbrev S384x128 : Shape := ⟨2, ![384, 128]⟩
abbrev S128 : Shape := ⟨1, ![128]⟩
abbrev S128x25 : Shape := ⟨2, ![128, 25]⟩
abbrev S25 : Shape := ⟨1, ![25]⟩
abbrev S25x1 : Shape := ⟨2, ![25, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x25 : S_.BroadcastsInDim S128x25 (![] : Fin 0 → Fin S128x25.rank)
  reducesTo_S128x25_S_d0_1 : S128x25.ReducesTo [0, 1] S_
  bcast_S_S25 : S_.BroadcastsInDim S25 (![] : Fin 0 → Fin S25.rank)
  reducesTo_S25_S_d0 : S25.ReducesTo [0] S_
  bcast_S_S25x1 : S_.BroadcastsInDim S25x1 (![] : Fin 0 → Fin S25x1.rank)
  reducesTo_S25x1_S_d0_1 : S25x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S25x1 .f32) (main_arg10 : FVec F S1 .f32) (main_v33 : IVec S_ 1) : IVec S_ 1 :=
  let main_v34 : FVec F S25x1 .f32 := Host.absf main_arg9
  let main_cst_12 : FVec F S_ .f32 := constant S_ .f32 0x7F800000#32
  let main_v35 : FVec F S25x1 .f32 := broadcastInDim S25x1 ![] bcast_S_S25x1 main_cst_12
  let main_v36 : IVec S25x1 1 := cmpf .olt main_v34 main_v35
  let main_c_13 : IVec S_ 1 := constantI S_ 1 1#1
  let main_v37 : IVec S_ 1 := (fun x v => Host.reduce IntOp.andi x v reducesTo_S25x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x25 .f32) (main_arg8 : FVec F S25 .f32) (main_arg9 : FVec F S25x1 .f32) (main_arg10 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x25 .f32 := Host.absf main_arg7
  let main_cst_8 : FVec F S_ .f32 := constant S_ .f32 0x7F800000#32
  let main_v25 : FVec F S128x25 .f32 := broadcastInDim S128x25 ![] bcast_S_S128x25 main_cst_8
  let main_v26 : IVec S128x25 1 := cmpf .olt main_v24 main_v25
  let main_c_9 : IVec S_ 1 := constantI S_ 1 1#1
  let main_v27 : IVec S_ 1 := (fun x v => Host.reduce IntOp.andi x v reducesTo_S128x25_S_d0_1 h_S_) main_v26 main_c_9
  let main_v28 : IVec S_ 1 := andi main_v23 main_v27
  let main_v29 : FVec F S25 .f32 := Host.absf main_arg8
  let main_cst_10 : FVec F S_ .f32 := constant S_ .f32 0x7F800000#32
  let main_v30 : FVec F S25 .f32 := broadcastInDim S25 ![] bcast_S_S25 main_cst_10
  let main_v31 : IVec S25 1 := cmpf .olt main_v29 main_v30
  let main_c_11 : IVec S_ 1 := constantI S_ 1 1#1
  let main_v32 : IVec S_ 1 := (fun x v => Host.reduce IntOp.andi x v reducesTo_S25_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x400000 32) (main_arg2 : FVec F S400000x128 .f32) (main_arg3 : IVec S2x400000 32) (main_arg4 : FVec F S400000x128 .f32) (main_arg5 : FVec F S384x128 .f32) (main_arg6 : FVec F S128 .f32) (main_arg7 : FVec F S128x25 .f32) (main_arg8 : FVec F S25 .f32) (main_arg9 : FVec F S25x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg2
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S400000x128 .f32 := Host.absf main_arg4
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x400000 : Shape := ⟨2, ![2, 400000]⟩
abbrev S400000x128 : Shape := ⟨2, ![400000, 128]⟩
abbrev S384x128 : Shape := ⟨2, ![384, 128]⟩
abbrev S128 : Shape := ⟨1, ![128]⟩
abbrev S128x25 : Shape := ⟨2, ![128, 25]⟩
abbrev S25 : Shape := ⟨1, ![25]⟩
abbrev S25x1 : Shape := ⟨2, ![25, 1]⟩
abbrev S1 : Shape := ⟨1, ![1]⟩
abbrev S128x128 : Shape := ⟨2, ![128, 128]⟩
abbrev S1x128 : Shape := ⟨2, ![1, 128]⟩
abbrev S1x25 : Shape := ⟨2, ![1, 25]⟩
abbrev S1x1 : Shape := ⟨2, ![1, 1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S8000x128 : Shape := ⟨2, ![8000, 128]⟩
abbrev S8000x1 : Shape := ⟨2, ![8000, 1]⟩
abbrev S8000x25 : Shape := ⟨2, ![8000, 25]⟩

abbrev nBuf : Space → Nat
  | .hbm => 69
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S400000x128, .f32⟩
  | .hbm, ⟨3, _⟩ => ⟨S2x400000, .i32⟩
  | .hbm, ⟨4, _⟩ => ⟨S400000x128, .f32⟩
  | .hbm, ⟨5, _⟩ => ⟨S384x128, .f32⟩
  | .hbm, ⟨6, _⟩ => ⟨S128, .f32⟩
  | .hbm, ⟨7, _⟩ => ⟨S128x25, .f32⟩
  | .hbm, ⟨8, _⟩ => ⟨S25, .f32⟩
  | .hbm, ⟨9, _⟩ => ⟨S25x1, .f32⟩
  | .hbm, ⟨10, _⟩ => ⟨S1, .f32⟩
  | .hbm, ⟨11, _⟩ => ⟨S100000x128, .bf16⟩
  | .hbm, ⟨12, _⟩ => ⟨S384x128, .bf16⟩
  | .hbm, ⟨13, _⟩ => ⟨S128x25, .bf16⟩
  | .hbm, ⟨14, _⟩ => ⟨S25x1, .bf16⟩
  | .hbm, ⟨15, _⟩ => ⟨S128x128, .bf16⟩
  | .hbm, ⟨16, _⟩ => ⟨S128x128, .bf16⟩
  | .hbm, ⟨17, _⟩ => ⟨S128x128, .bf16⟩
  | .hbm, ⟨18, _⟩ => ⟨S1x128, .f32⟩
  | .hbm, ⟨19, _⟩ => ⟨S1x25, .f32⟩
  | .hbm, ⟨20, _⟩ => ⟨S1x1, .f32⟩
  | .hbm, ⟨21, _⟩ => ⟨S1x400000, .i32⟩
  | .hbm, ⟨22, _⟩ => ⟨S400000, .i32⟩
  | .hbm, ⟨23, _⟩ => ⟨S1x400000, .i32⟩
  | .hbm, ⟨24, _⟩ => ⟨S400000, .i32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x128, .bf16⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x128, .bf16⟩
  | .hbm, ⟨43, _⟩ => ⟨S400000x128, .bf16⟩
  | .hbm, ⟨44, _⟩ => ⟨S400000x1, .f32⟩
  | .hbm, ⟨45, _⟩ => ⟨S1x400000, .i32⟩
  | .hbm, ⟨46, _⟩ => ⟨S400000, .i32⟩
  | .hbm, ⟨47, _⟩ => ⟨S1x400000, .i32⟩
  | .hbm, ⟨48, _⟩ => ⟨S400000, .i32⟩
  | .hbm, ⟨49, _⟩ => ⟨S_, .i32⟩
  | .hbm, ⟨50, _⟩ => ⟨S400000, .i32⟩
  | .hbm, ⟨51, _⟩ => ⟨S400000, .i1⟩
  | .hbm, ⟨52, _⟩ => ⟨S_, .i32⟩
  | .hbm, ⟨53, _⟩ => ⟨S400000, .i32⟩
  | .hbm, ⟨54, _⟩ => ⟨S400000, .i32⟩
  | .hbm, ⟨55, _⟩ => ⟨S400000, .i32⟩
  | .hbm, ⟨56, _⟩ => ⟨S400000x1, .i32⟩
  | .hbm, ⟨57, _⟩ => ⟨S400000x128, .bf16⟩
  | .hbm, ⟨58, _⟩ => ⟨S_, .i32⟩
  | .hbm, ⟨59, _⟩ => ⟨S400000, .i32⟩
  | .hbm, ⟨60, _⟩ => ⟨S400000, .i1⟩
  | .hbm, ⟨61, _⟩ => ⟨S_, .i32⟩
  | .hbm, ⟨62, _⟩ => ⟨S400000, .i32⟩
  | .hbm, ⟨63, _⟩ => ⟨S400000, .i32⟩
  | .hbm, ⟨64, _⟩ => ⟨S400000, .i32⟩
  | .hbm, ⟨65, _⟩ => ⟨S400000x1, .i32⟩
  | .hbm, ⟨66, _⟩ => ⟨S400000x128, .bf16⟩
  | .hbm, ⟨67, _⟩ => ⟨S400000x128, .bf16⟩
  | .hbm, ⟨68, _⟩ => ⟨S400000x1, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x128, .bf16⟩
  | .local _ .vmem, ⟨5, _⟩ => ⟨S8000x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x25, .bf16⟩
  | .local _ .vmem, ⟨11, _⟩ => ⟨S1x25, .f32⟩
  | .local _ .vmem, ⟨12, _⟩ => ⟨S25x1, .bf16⟩
  | .local _ .vmem, ⟨13, _⟩ => ⟨S1x1, .f32⟩
  | .local _ .vmem, ⟨14, _⟩ => ⟨S8000x1, .f32⟩
  | .local _ .vmem, ⟨15, _⟩ => ⟨S8000x1, .f32⟩
  | .local _ .vmem, ⟨16, _⟩ => ⟨S8000x128, .bf16⟩
  | .local _ .vmem, ⟨17, _⟩ => ⟨S8000x128, .bf16⟩
  | .local _ .vmem, ⟨18, _⟩ => ⟨S8000x128, .bf16⟩
  | .local _ .vmem, ⟨19, _⟩ => ⟨S8000x128, .bf16⟩
  | .local _ .vmem, ⟨20, _⟩ => ⟨S8000x128, .bf16⟩
  | .local _ .vmem, ⟨21, _⟩ => ⟨S8000x128, .bf16⟩
  | .local _ .vmem, ⟨22, _⟩ => ⟨S128x128, .bf16⟩
  | .local _ .vmem, ⟨23, _⟩ => ⟨S128x128, .bf16⟩
  | .local _ .vmem, ⟨24, _⟩ => ⟨S128x128, .bf16⟩
  | .local _ .vmem, ⟨25, _⟩ => ⟨S1x128, .f32⟩
  | .local _ .vmem, ⟨26, _⟩ => ⟨S128x25, .bf16⟩
  | .local _ .vmem, ⟨27, _⟩ => ⟨S1x25, .f32⟩
  | .local _ .vmem, ⟨28, _⟩ => ⟨S25x1, .bf16⟩
  | .local _ .vmem, ⟨29, _⟩ => ⟨S1x1, .f32⟩
  | .local _ .vmem, ⟨30, _⟩ => ⟨S8000x1, .f32⟩
  | .local _ .vmem, ⟨31, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_3 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x25 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x25 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S25x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x25 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x25 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S25x1 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S8000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  shapeCasts_S25_S1x25 : S25.ShapeCasts S1x25
  shapeCasts_S1_S1x1 : S1.ShapeCasts S1x1
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x25_S128x25_0_0 : ∀ a, (![0, 0] : Fin 2 → Nat) a + S128x25.size a ≤ S128x25.size a
  h_S128x25 : 0 < S128x25.numel
  shapeCasts_S128x25_S128x25 : S128x25.ShapeCasts S128x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S8000x25 : S1x25.Broadcasts S8000x25
  inb_S25x1_S25x1_0_0 : ∀ a, (![0, 0] : Fin 2 → Nat) a + S25x1.size a ≤ S25x1.size a
  h_S25x1 : 0 < S25x1.numel
  shapeCasts_S25x1_S25x1 : S25x1.ShapeCasts S25x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x128_S400000x1_S400000x128_1_0_n_n_0_1_1128_wf : GatherDims.WF S100000x128 S400000x1 S400000x128 [1] [0] [] [0] [] 1 ![1, 128]
  dot_S8000x128_S128x128_S8000x128_1_0_0_1_n_n_wf : DotDims.WF S8000x128 S128x128 S8000x128 [1] [0] [0] [1] [] []
  dot_S8000x128_S128x25_S8000x25_1_0_0_1_n_n_wf : DotDims.WF S8000x128 S128x25 S8000x25 [1] [0] [0] [1] [] []
  dot_S8000x25_S25x1_S8000x1_1_0_0_1_n_n_wf : DotDims.WF S8000x25 S25x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .bf16 = 32 ∨ (Rect.block (s := S400000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S400000x128.size a
  hwx0_1 : ∀ i : grid0.Coords, EltTy.bits .bf16 = 32 ∨ (Rect.block (s := S400000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S400000x128.size a
  hwx0_2 : ∀ i : grid0.Coords, EltTy.bits .bf16 = 32 ∨ (Rect.block (s := S400000x128) S8000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x25.size a ≤ S128x25.size a
  hwx0_7 : ∀ i : grid0.Coords, EltTy.bits .bf16 = 32 ∨ (Rect.block (s := S128x25) S128x25.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x25.size a ≤ S1x25.size a
  hwx0_8 : ∀ i : grid0.Coords, EltTy.bits .f32 = 32 ∨ (Rect.block (s := S1x25) S1x25.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S25x1.size a ≤ S25x1.size a
  hwx0_9 : ∀ i : grid0.Coords, EltTy.bits .bf16 = 32 ∨ (Rect.block (s := S25x1) S25x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x1.size a ≤ S400000x1.size a
  hwx0_11 : ∀ i : grid0.Coords, EltTy.bits .f32 = 32 ∨ (Rect.block (s := S400000x1) S8000x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S400000x128.size a
  hwx1_0 : ∀ i : grid1.Coords, EltTy.bits .bf16 = 32 ∨ (Rect.block (s := S400000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S400000x128.size a
  hwx1_1 : ∀ i : grid1.Coords, EltTy.bits .bf16 = 32 ∨ (Rect.block (s := S400000x128) S8000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S400000x128.size a
  hwx1_2 : ∀ i : grid1.Coords, EltTy.bits .bf16 = 32 ∨ (Rect.block (s := S400000x128) S8000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x25.size a ≤ S128x25.size a
  hwx1_7 : ∀ i : grid1.Coords, EltTy.bits .bf16 = 32 ∨ (Rect.block (s := S128x25) S128x25.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x25.size a ≤ S1x25.size a
  hwx1_8 : ∀ i : grid1.Coords, EltTy.bits .f32 = 32 ∨ (Rect.block (s := S1x25) S1x25.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S25x1.size a ≤ S25x1.size a
  hwx1_9 : ∀ i : grid1.Coords, EltTy.bits .bf16 = 32 ∨ (Rect.block (s := S25x1) S25x1.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S8000x1.size a ≤ S400000x1.size a
  hwx1_11 : ∀ i : grid1.Coords, EltTy.bits .f32 = 32 ∨ (Rect.block (s := S400000x1) S8000x1.size (cc1_transform_11 i) (hinb1_11 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x25_S8000x25_1_0_0_1_n_n : DotDims S8000x128 S128x25 S8000x25 where
  lhsContracting := [1]
  rhsContracting := [0]
  lhsNonContracting := [0]
  rhsNonContracting := [1]
  lhsBatch := []
  rhsBatch := []
  wf := dot_S8000x128_S128x25_S8000x25_1_0_0_1_n_n_wf
def dot_S8000x25_S25x1_S8000x1_1_0_0_1_n_n : DotDims S8000x25 S25x1 S8000x1 where
  lhsContracting := [1]
  rhsContracting := [0]
  lhsNonContracting := [0]
  rhsNonContracting := [1]
  lhsBatch := []
  rhsBatch := []
  wf := dot_S8000x25_S25x1_S8000x1_1_0_0_1_n_n_wf

abbrev win0_0 : Pipeline.Window sig grid0 :=
  Pipeline.Window.ofSpec (Memref.whole main_v20) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x25.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x25.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S25x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S8000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v40) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S8000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S128x25.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x25.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S25x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v49) S8000x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S400000x128 : Shape := ⟨2, ![400000, 128]⟩
abbrev S384x128 : Shape := ⟨2, ![384, 128]⟩
abbrev S128 : Shape := ⟨1, ![128]⟩
abbrev S128x25 : Shape := ⟨2, ![128, 25]⟩
abbrev S25 : Shape := ⟨1, ![25]⟩
abbrev S25x1 : Shape := ⟨2, ![25, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S400000x384 : Shape := ⟨2, ![400000, 384]⟩
abbrev S1x128 : Shape := ⟨2, ![1, 128]⟩
abbrev S400000x25 : Shape := ⟨2, ![400000, 25]⟩
abbrev S1x25 : Shape := ⟨2, ![1, 25]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S400000x128, .f32⟩
  | .hbm, ⟨3, _⟩ => ⟨S2x400000, .i32⟩
  | .hbm, ⟨4, _⟩ => ⟨S400000x128, .f32⟩
  | .hbm, ⟨5, _⟩ => ⟨S384x128, .f32⟩
  | .hbm, ⟨6, _⟩ => ⟨S128, .f32⟩
  | .hbm, ⟨7, _⟩ => ⟨S128x25, .f32⟩
  | .hbm, ⟨8, _⟩ => ⟨S25, .f32⟩
  | .hbm, ⟨9, _⟩ => ⟨S25x1, .f32⟩
  | .hbm, ⟨10, _⟩ => ⟨S1, .f32⟩
  | .hbm, ⟨11, _⟩ => ⟨S1x400000, .i32⟩
  | .hbm, ⟨12, _⟩ => ⟨S400000, .i32⟩
  | .hbm, ⟨13, _⟩ => ⟨S_, .i32⟩
  | .hbm, ⟨14, _⟩ => ⟨S400000, .i32⟩
  | .hbm, ⟨15, _⟩ => ⟨S400000, .i1⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S400000, .i32⟩
  | .hbm, ⟨20, _⟩ => ⟨S400000x1, .i32⟩
  | .hbm, ⟨21, _⟩ => ⟨S400000x128, .f32⟩
  | .hbm, ⟨22, _⟩ => ⟨S1x400000, .i32⟩
  | .hbm, ⟨23, _⟩ => ⟨S400000, .i32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S400000x256, .f32⟩
  | .hbm, ⟨34, _⟩ => ⟨S_, .f32⟩
  | .hbm, ⟨35, _⟩ => ⟨S400000x256, .f32⟩
  | .hbm, ⟨36, _⟩ => ⟨S400000x256, .f32⟩
  | .hbm, ⟨37, _⟩ => ⟨S400000x384, .f32⟩
  | .hbm, ⟨38, _⟩ => ⟨S400000x128, .f32⟩
  | .hbm, ⟨39, _⟩ => ⟨S1x128, .f32⟩
  | .hbm, ⟨40, _⟩ => ⟨S400000x128, .f32⟩
  | .hbm, ⟨41, _⟩ => ⟨S400000x128, .f32⟩
  | .hbm, ⟨42, _⟩ => ⟨S_, .f32⟩
  | .hbm, ⟨43, _⟩ => ⟨S400000x128, .f32⟩
  | .hbm, ⟨44, _⟩ => ⟨S400000x128, .f32⟩
  | .hbm, ⟨45, _⟩ => ⟨S400000x25, .f32⟩
  | .hbm, ⟨46, _⟩ => ⟨S1x25, .f32⟩
  | .hbm, ⟨47, _⟩ => ⟨S400000x25, .f32⟩
  | .hbm, ⟨48, _⟩ => ⟨S400000x25, .f32⟩
  | .hbm, ⟨49, _⟩ => ⟨S_, .f32⟩
  | .hbm, ⟨50, _⟩ => ⟨S400000x25, .f32⟩
  | .hbm, ⟨51, _⟩ => ⟨S400000x25, .f32⟩
  | .hbm, ⟨52, _⟩ => ⟨S400000x1, .f32⟩
  | .hbm, ⟨53, _⟩ => ⟨S1x1, .f32⟩
  | .hbm, ⟨54, _⟩ => ⟨S400000x1, .f32⟩
  | .hbm, ⟨55, _⟩ => ⟨S400000x1, .f32⟩
  | .hbm, ⟨56, _⟩ => ⟨S400000x1, .f32⟩
  | .hbm, ⟨57, _⟩ => ⟨S400000x1, .f32⟩
  | .hbm, ⟨58, _⟩ => ⟨S_, .f32⟩
  | .hbm, ⟨59, _⟩ => ⟨S400000x1, .f32⟩
  | .hbm, ⟨60, _⟩ => ⟨S400000x1, .f32⟩
  | .hbm, ⟨61, _⟩ => ⟨S_, .f32⟩
  | .hbm, ⟨62, _⟩ => ⟨S400000x1, .f32⟩
  | .hbm, ⟨63, _⟩ => ⟨S400000x1, .f32⟩
  | .hbm, ⟨64, _⟩ => ⟨S1x400000, .i32⟩
  | .hbm, ⟨65, _⟩ => ⟨S400000, .i32⟩
  | .hbm, ⟨66, _⟩ => ⟨S_, .i32⟩
  | .hbm, ⟨67, _⟩ => ⟨S400000, .i32⟩
  | .hbm, ⟨68, _⟩ => ⟨S400000, .i1⟩
  | .hbm, ⟨69, _⟩ => ⟨S_, .i32⟩
  | .hbm, ⟨70, _⟩ => ⟨S400000, .i32⟩
  | .hbm, ⟨71, _⟩ => ⟨S400000, .i32⟩
  | .hbm, ⟨72, _⟩ => ⟨S400000, .i32⟩
  | .hbm, ⟨73, _⟩ => ⟨S400000x1, .i32⟩
  | .hbm, ⟨74, _⟩ => ⟨S400000x128, .f32⟩
  | .hbm, ⟨75, _⟩ => ⟨S1x400000, .i32⟩
  | .hbm, ⟨76, _⟩ => ⟨S400000, .i32⟩
  | .hbm, ⟨77, _⟩ => ⟨S_, .i32⟩
  | .hbm, ⟨78, _⟩ => ⟨S400000, .i32⟩
  | .hbm, ⟨79, _⟩ => ⟨S400000, .i1⟩
  | .hbm, ⟨80, _⟩ => ⟨S_, .i32⟩
  | .hbm, ⟨81, _⟩ => ⟨S400000, .i32⟩
  | .hbm, ⟨82, _⟩ => ⟨S400000, .i32⟩
  | .hbm, ⟨83, _⟩ => ⟨S400000, .i32⟩
  | .hbm, ⟨84, _⟩ => ⟨S400000x1, .i32⟩
  | .hbm, ⟨85, _⟩ => ⟨S400000x128, .f32⟩
  | .hbm, ⟨86, _⟩ => ⟨S400000x256, .f32⟩
  | .hbm, ⟨87, _⟩ => ⟨S_, .f32⟩
  | .hbm, ⟨88, _⟩ => ⟨S400000x256, .f32⟩
  | .hbm, ⟨89, _⟩ => ⟨S400000x256, .f32⟩
  | .hbm, ⟨90, _⟩ => ⟨S400000x384, .f32⟩
  | .hbm, ⟨91, _⟩ => ⟨S400000x128, .f32⟩
  | .hbm, ⟨92, _⟩ => ⟨S1x128, .f32⟩
  | .hbm, ⟨93, _⟩ => ⟨S400000x128, .f32⟩
  | .hbm, ⟨94, _⟩ => ⟨S400000x128, .f32⟩
  | .hbm, ⟨95, _⟩ => ⟨S_, .f32⟩
  | .hbm, ⟨96, _⟩ => ⟨S400000x128, .f32⟩
  | .hbm, ⟨97, _⟩ => ⟨S400000x128, .f32⟩
  | .hbm, ⟨98, _⟩ => ⟨S400000x25, .f32⟩
  | .hbm, ⟨99, _⟩ => ⟨S1x25, .f32⟩
  | .hbm, ⟨100, _⟩ => ⟨S400000x25, .f32⟩
  | .hbm, ⟨101, _⟩ => ⟨S400000x25, .f32⟩
  | .hbm, ⟨102, _⟩ => ⟨S_, .f32⟩
  | .hbm, ⟨103, _⟩ => ⟨S400000x25, .f32⟩
  | .hbm, ⟨104, _⟩ => ⟨S400000x25, .f32⟩
  | .hbm, ⟨105, _⟩ => ⟨S400000x1, .f32⟩
  | .hbm, ⟨106, _⟩ => ⟨S1x1, .f32⟩
  | .hbm, ⟨107, _⟩ => ⟨S400000x1, .f32⟩
  | .hbm, ⟨108, _⟩ => ⟨S400000x1, .f32⟩
  | .hbm, ⟨109, _⟩ => ⟨S400000x1, .f32⟩
  | .hbm, ⟨110, _⟩ => ⟨S400000x1, .f32⟩
  | .hbm, ⟨111, _⟩ => ⟨S_, .f32⟩
  | .hbm, ⟨112, _⟩ => ⟨S400000x1, .f32⟩
  | .hbm, ⟨113, _⟩ => ⟨S400000x1, .f32⟩
  | .hbm, ⟨114, _⟩ => ⟨S_, .f32⟩
  | .hbm, ⟨115, _⟩ => ⟨S400000x1, .f32⟩
  | .hbm, ⟨116, _⟩ => ⟨S400000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_cst : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_4 : Ref sig .tc := ⟨.hbm, 66, rfl⟩
abbrev main_v43 : Ref sig .tc := ⟨.hbm, 67, rfl⟩
abbrev main_v44 : Ref sig .tc := ⟨.hbm, 68, rfl⟩
abbrev main_c_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_6 : Ref sig .tc := ⟨.hbm, 77, rfl⟩
abbrev main_v52 : Ref sig .tc := ⟨.hbm, 78, rfl⟩
abbrev main_v53 : Ref sig .tc := ⟨.hbm, 79, rfl⟩
abbrev main_c_7 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call3_cst : Ref sig .tc := ⟨.hbm, 87, rfl⟩
abbrev main_call3_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call4_cst : Ref sig .tc := ⟨.hbm, 95, rfl⟩
abbrev main_call4_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call5_cst : Ref sig .tc := ⟨.hbm, 102, rfl⟩
abbrev main_call5_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_8 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  concatenates_S400000x128_S400000x128_S400000x256_d1 : Shape.Concatenates [S400000x128, S400000x128] S400000x256 1
  bcast_S_S400000x256 : S_.BroadcastsInDim S400000x256 (![] : Fin 0 → Fin S400000x256.rank)
  concatenates_S400000x256_S400000x128_S400000x384_d1 : Shape.Concatenates [S400000x256, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S25_S1x25_1 : S25.BroadcastsInDim S1x25 (![1] : Fin 1 → Fin S1x25.rank)
  bcast_S1x25_S400000x25_0_1 : S1x25.BroadcastsInDim S400000x25 (![0, 1] : Fin 2 → Fin S400000x25.rank)
  bcast_S_S400000x25 : S_.BroadcastsInDim S400000x25 (![] : Fin 0 → Fin S400000x25.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  gather_S100000x128_S400000x1_S400000x128_1_0_n_n_0_1_1128_wf : GatherDims.WF S100000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x25_S400000x25_1_0_0_1_n_n_wf : DotDims.WF S400000x128 S128x25 S400000x25 [1] [0] [0] [1] [] []
  dot_S400000x25_S25x1_S400000x1_1_0_0_1_n_n_wf : DotDims.WF S400000x25 S25x1 S400000x1 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x25_S400000x25_1_0_0_1_n_n : DotDims S400000x128 S128x25 S400000x25 where
  lhsContracting := [1]
  rhsContracting := [0]
  lhsNonContracting := [0]
  rhsNonContracting := [1]
  lhsBatch := []
  rhsBatch := []
  wf := dot_S400000x128_S128x25_S400000x25_1_0_0_1_n_n_wf
def dot_S400000x25_S25x1_S400000x1_1_0_0_1_n_n : DotDims S400000x25 S25x1 S400000x1 where
  lhsContracting := [1]
  rhsContracting := [0]
  lhsNonContracting := [0]
  rhsNonContracting := [1]
  lhsBatch := []
  rhsBatch := []
  wf := dot_S400000x25_S25x1_S400000x1_1_0_0_1_n_n_wf

class Facts : Prop extends Facts₀ where

variable [Facts]
-- ==== Proof.Boundary.lean ====
/-
  What each launch finds in its arrays, and where the two results end up, in terms of the arguments.

  Before the first launch the host gathers rows of the node features at the two rows of the positive edge index, narrows
  the node features, the edge attributes and the weights to bf16 (at the ideal instance a change of float format is the
  identity), cuts the first weight into its three bands of 128 rows and lays each bias out as a one-row array. Between the
  launches it does the same gathers at the negative edge index; the weights the second launch reads are the arrays the
  first launch read, and a launch leaves the arrays it only reads as it found them. The first result is the first
  launch's output, which nothing later writes; the second result is the second launch's output.
-/
import proofs.«179008_j46574625358326_1_alg».proof.Proof.Gen.KernelIdeal.Frame
import proofs.«179008_j46574625358326_1_alg».proof.Proof.Gen.ReferenceIdeal.Read
import Idealize.ShloMosaic.Lib.StableHlo.Run
import Idealize.ShloMosaic.Lib.Pipeline.Value

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Before the first launch -/

/-- The source rows of the positive edges: the reference's first gather. -/
theorem first_src (c : Dev nD) : (V1 m ρ c main_v20 : S400000x128.Idx → EReal)
    = Cert.ReferenceIdeal.Read.val_main_v8 (F := Ideal) (m ((c : Thread nD τ).loc main_arg0)) (m ((c : Thread nD τ).loc main_arg1)) := by
  dsimp only [V1, W1, hostOps0]
  after_results_simp
  rfl

/-- The target rows of the positive edges: the reference's second gather. -/
theorem first_dst (c : Dev nD) : (V1 m ρ c main_v27 : S400000x128.Idx → EReal)
    = Cert.ReferenceIdeal.Read.val_main_v17 (F := Ideal) (m ((c : Thread nD τ).loc main_arg0)) (m ((c : Thread nD τ).loc main_arg1)) := by
  dsimp only [V1, W1, hostOps0]
  after_results_simp
  rfl

/-- The positive edges' attributes, narrowed: the argument itself. -/
theorem first_attr (c : Dev nD) : (V1 m ρ c main_v28 : S400000x128.Idx → EReal) = m ((c : Thread nD τ).loc main_arg2) := by
  dsimp only [V1, W1, hostOps0]
  after_results_simp
  rfl

/-- The first band of the first weight. -/
theorem bandA (c : Dev nD) : (V1 m ρ c main_v4 : S128x128.Idx → EReal)
    = extractStridedSlice S128x128 ![0, 0] (m ((c : Thread nD τ).loc main_arg5) : S384x128.Idx → EReal) slices_S384x128_S128x128_0_0 := by
  dsimp only [V1, W1, hostOps0]
  after_results_simp
  rfl

/-- The second band of the first weight. -/
theorem bandB (c : Dev nD) : (V1 m ρ c main_v5 : S128x128.Idx → EReal)
    = extractStridedSlice S128x128 ![128, 0] (m ((c : Thread nD τ).loc main_arg5) : S384x128.Idx → EReal) slices_S384x128_S128x128_128_0 := by
  dsimp only [V1, W1, hostOps0]
  after_results_simp
  rfl

/-- The third band of the first weight. -/
theorem bandC (c : Dev nD) : (V1 m ρ c main_v6 : S128x128.Idx → EReal)
    = extractStridedSlice S128x128 ![256, 0] (m ((c : Thread nD τ).loc main_arg5) : S384x128.Idx → EReal) slices_S384x128_S128x128_256_0 := by
  dsimp only [V1, W1, hostOps0]
  after_results_simp
  rfl

/-- The first bias as a one-row array. -/
theorem biasRow1 (c : Dev nD) : (V1 m ρ c main_v7 : S1x128.Idx → EReal)
    = shapeCast S1x128 (m ((c : Thread nD τ).loc main_arg6) : S128.Idx → EReal) shapeCasts_S128_S1x128 := by
  dsimp only [V1, W1, hostOps0]
  after_results_simp
  rfl

/-- The second weight, narrowed: the argument itself. -/
theorem weight2 (c : Dev nD) : (V1 m ρ c main_v2 : S128x25.Idx → EReal) = m ((c : Thread nD τ).loc main_arg7) := by
  dsimp only [V1, W1, hostOps0]
  after_results_simp
  rfl

/-- The second bias as a one-row array. -/
theorem biasRow2 (c : Dev nD) : (V1 m ρ c main_v8 : S1x25.Idx → EReal)
    = shapeCast S1x25 (m ((c : Thread nD τ).loc main_arg8) : S25.Idx → EReal) shapeCasts_S25_S1x25 := by
  dsimp only [V1, W1, hostOps0]
  after_results_simp
  rfl

/-- The third weight, narrowed: the argument itself. -/
theorem weight3 (c : Dev nD) : (V1 m ρ c main_v3 : S25x1.Idx → EReal) = m ((c : Thread nD τ).loc main_arg9) := by
  dsimp only [V1, W1, hostOps0]
  after_results_simp
  rfl

/-- The third bias as a one-row array. -/
theorem biasRow3 (c : Dev nD) : (V1 m ρ c main_v9 : S1x1.Idx → EReal)
    = shapeCast S1x1 (m ((c : Thread nD τ).loc main_arg10) : S1.Idx → EReal) shapeCasts_S1_S1x1 := by
  dsimp only [V1, W1, hostOps0]
  after_results_simp
  rfl

/-! ## Across the first launch -/

/-- An array the first launch only reads holds after it what it held before. -/
theorem kept_input (c : Dev nD) (w : Fin cfg0.W) (hin : (cfg0.win w).isOut = false) :
    W2 m ρ c (Proc.devRef .tc (Pipeline.arrRef spec0 w)) = V1 m ρ c (Pipeline.arrRef spec0 w) :=
  ((W2_arr m ρ c w).trans ((dat0 (V1 m ρ) c).arrAt_in w hin cfg0.N)).trans (A_eq0 (V1 m ρ) c w)

/-- The narrowed node features are no array of the first launch: they come through it untouched. -/
theorem kept_nodes (c : Dev nD) : (W2 m ρ c (Proc.devRef .tc main_v0) : S100000x128.Idx → EReal) = m ((c : Thread nD τ).loc main_arg0) := by
  refine (W2_of_ne m ρ c main_v0 (by decide)).trans ?_
  show W1 m ρ c (Proc.devRef .tc main_v0) = _
  dsimp only [W1, hostOps0]
  after_results_simp
  rfl

/-- The negative edge index comes through the first stretch and the first launch untouched. -/
theorem kept_negIndex (c : Dev nD) : (W2 m ρ c (Proc.devRef .tc main_arg3) : S2x400000.Idx → BitVec 32) = m ((c : Thread nD τ).loc main_arg3) := by
  refine (W2_of_ne m ρ c main_arg3 (by decide)).trans ?_
  show W1 m ρ c (Proc.devRef .tc main_arg3) = _
  dsimp only [W1, hostOps0]
  after_results_simp

/-- The negative edges' attributes come through the first stretch and the first launch untouched. -/
theorem kept_negAttr (c : Dev nD) : (W2 m ρ c (Proc.devRef .tc main_arg4) : S400000x128.Idx → EReal) = m ((c : Thread nD τ).loc main_arg4) := by
  refine (W2_of_ne m ρ c main_arg4 (by decide)).trans ?_
  show W1 m ρ c (Proc.devRef .tc main_arg4) = _
  dsimp only [W1, hostOps0]
  after_results_simp

/-! ## Before the second launch -/

/-- The source rows of the negative edges: the reference's third gather. -/
theorem second_src (c : Dev nD) : (V3 m ρ c main_v40 : S400000x128.Idx → EReal)
    = Cert.ReferenceIdeal.Read.val_main_v49 (F := Ideal) (m ((c : Thread nD τ).loc main_arg0)) (m ((c : Thread nD τ).loc main_arg3)) := by
  dsimp only [V3, W3, hostOps1]
  after_results_simp
  rw [kept_nodes m ρ c, kept_negIndex m ρ c]
  rfl

/-- The target rows of the negative edges: the reference's fourth gather. -/
theorem second_dst (c : Dev nD) : (V3 m ρ c main_v47 : S400000x128.Idx → EReal)
    = Cert.ReferenceIdeal.Read.val_main_v58 (F := Ideal) (m ((c : Thread nD τ).loc main_arg0)) (m ((c : Thread nD τ).loc main_arg3)) := by
  dsimp only [V3, W3, hostOps1]
  after_results_simp
  rw [kept_nodes m ρ c, kept_negIndex m ρ c]
  rfl

/-- The negative edges' attributes, narrowed: the argument itself. -/
theorem second_attr (c : Dev nD) : (V3 m ρ c main_v48 : S400000x128.Idx → EReal) = m ((c : Thread nD τ).loc main_arg4) := by
  dsimp only [V3, W3, hostOps1]
  after_results_simp
  rw [kept_negAttr m ρ c]
  rfl

/-- Nothing between the launches writes the first band of the first weight, and the first launch only reads it: the second launch finds what the
    first found. -/
theorem second_main_v4 (c : Dev nD) : (V3 m ρ c main_v4 : S128x128.Idx → EReal) = V1 m ρ c main_v4 := by
  refine Eq.trans ?_ (kept_input m ρ c 3 rfl)
  show StableHlo.after hostOps1 (W2 m ρ c) (Proc.devRef .tc main_v4) = W2 m ρ c (Proc.devRef .tc main_v4)
  dsimp only [hostOps1]
  after_results_simp

/-- Nothing between the launches writes the second band of the first weight, and the first launch only reads it: the second launch finds what the
    first found. -/
theorem second_main_v5 (c : Dev nD) : (V3 m ρ c main_v5 : S128x128.Idx → EReal) = V1 m ρ c main_v5 := by
  refine Eq.trans ?_ (kept_input m ρ c 4 rfl)
  show StableHlo.after hostOps1 (W2 m ρ c) (Proc.devRef .tc main_v5) = W2 m ρ c (Proc.devRef .tc main_v5)
  dsimp only [hostOps1]
  after_results_simp

/-- Nothing between the launches writes the third band of the first weight, and the first launch only reads it: the second launch finds what the
    first found. -/
theorem second_main_v6 (c : Dev nD) : (V3 m ρ c main_v6 : S128x128.Idx → EReal) = V1 m ρ c main_v6 := by
  refine Eq.trans ?_ (kept_input m ρ c 5 rfl)
  show StableHlo.after hostOps1 (W2 m ρ c) (Proc.devRef .tc main_v6) = W2 m ρ c (Proc.devRef .tc main_v6)
  dsimp only [hostOps1]
  after_results_simp

/-- Nothing between the launches writes the first bias row, and the first launch only reads it: the second launch finds what the
    first found. -/
theorem second_main_v7 (c : Dev nD) : (V3 m ρ c main_v7 : S1x128.Idx → EReal) = V1 m ρ c main_v7 := by
  refine Eq.trans ?_ (kept_input m ρ c 6 rfl)
  show StableHlo.after hostOps1 (W2 m ρ c) (Proc.devRef .tc main_v7) = W2 m ρ c (Proc.devRef .tc main_v7)
  dsimp only [hostOps1]
  after_results_simp

/-- Nothing between the launches writes the second weight, and the first launch only reads it: the second launch finds what the
    first found. -/
theorem second_main_v2 (c : Dev nD) : (V3 m ρ c main_v2 : S128x25.Idx → EReal) = V1 m ρ c main_v2 := by
  refine Eq.trans ?_ (kept_input m ρ c 7 rfl)
  show StableHlo.after hostOps1 (W2 m ρ c) (Proc.devRef .tc main_v2) = W2 m ρ c (Proc.devRef .tc main_v2)
  dsimp only [hostOps1]
  after_results_simp

/-- Nothing between the launches writes the second bias row, and the first launch only reads it: the second launch finds what the
    first found. -/
theorem second_main_v8 (c : Dev nD) : (V3 m ρ c main_v8 : S1x25.Idx → EReal) = V1 m ρ c main_v8 := by
  refine Eq.trans ?_ (kept_input m ρ c 8 rfl)
  show StableHlo.after hostOps1 (W2 m ρ c) (Proc.devRef .tc main_v8) = W2 m ρ c (Proc.devRef .tc main_v8)
  dsimp only [hostOps1]
  after_results_simp

/-- Nothing between the launches writes the third weight, and the first launch only reads it: the second launch finds what the
    first found. -/
theorem second_main_v3 (c : Dev nD) : (V3 m ρ c main_v3 : S25x1.Idx → EReal) = V1 m ρ c main_v3 := by
  refine Eq.trans ?_ (kept_input m ρ c 9 rfl)
  show StableHlo.after hostOps1 (W2 m ρ c) (Proc.devRef .tc main_v3) = W2 m ρ c (Proc.devRef .tc main_v3)
  dsimp only [hostOps1]
  after_results_simp

/-- Nothing between the launches writes the third bias row, and the first launch only reads it: the second launch finds what the
    first found. -/
theorem second_main_v9 (c : Dev nD) : (V3 m ρ c main_v9 : S1x1.Idx → EReal) = V1 m ρ c main_v9 := by
  refine Eq.trans ?_ (kept_input m ρ c 10 rfl)
  show StableHlo.after hostOps1 (W2 m ρ c) (Proc.devRef .tc main_v9) = W2 m ρ c (Proc.devRef .tc main_v9)
  dsimp only [hostOps1]
  after_results_simp

end Cert.KernelIdeal.Boundary

end
-- ==== Proof.Spec.lean ====
/-
  The edge-scoring head, one row at a time.

  An edge's score is a function of three rows of 128 numbers — the features of its source node, of its target node,
  and its own attributes — and of the weights of a three-layer perceptron:

    h₁(q) = max (∑ₖ max(sₖ,0)·A(k,q) + ∑ₖ max(dₖ,0)·B(k,q) + ∑ₖ eₖ·C(k,q) + b₁(q)) 0      (q < 128)
    h₂(q) = max (∑ₖ h₁(k)·W₂(k,q) + b₂(q)) 0                                              (q < 25)
    score = logistic (∑ₖ h₂(k)·W₃(k) + b₃)

  where A, B, C are the three bands of 128 consecutive rows of the 384-row first weight. Written over the joined row
  (max(s,0), max(d,0), e) of 384 numbers the first layer is one sum over 384 terms; `sum_bands` splits such a sum into
  its three bands. The split only regroups the terms of a finite sum, so it holds in any commutative additive monoid,
  the extended reals included: nothing here needs the entries to be finite.
-/
import Idealize.ShloMosaic.PureOps.Ideal
import Idealize.ShloMosaic.PureOps.Ideal.Laws
import Idealize.ShloMosaic.Lib.ValueIdx
import Mathlib.Algebra.BigOperators.Fin

noncomputable section

namespace Cert.EdgeHead

open Idealize.ShloMosaic Idealize.ShloMosaic.ValueIdx

/-! ## The three bands of the first weight's rows -/

/-- Row `k` of the first band: row `k` of the whole. -/
def band0 (k : Fin 128) : Fin 384 := ⟨k.val, by omega⟩
/-- Row `k` of the second band: row `128 + k` of the whole. -/
def band1 (k : Fin 128) : Fin 384 := ⟨128 + k.val, by omega⟩
/-- Row `k` of the third band: row `256 + k` of the whole. -/
def band2 (k : Fin 128) : Fin 384 := ⟨256 + k.val, by omega⟩

/-- A sum over 384 terms is the sum of its three bands of 128. -/
theorem sum_bands {M : Type*} [AddCommMonoid M] (f : Fin 384 → M) :
    ∑ k : Fin 384, f k = ((∑ k : Fin 128, f (band0 k)) + ∑ k : Fin 128, f (band1 k)) + ∑ k : Fin 128, f (band2 k) := by
  have h1 := Fin.sum_univ_add (a := 256) (b := 128) f
  have h2 := Fin.sum_univ_add (a := 128) (b := 128) (fun i : Fin 256 => f (Fin.castAdd 128 i))
  rw [h1, h2]
  rfl

/-! ## One row through the three layers -/

/-- The first hidden layer of one row. -/
def hid1 (s d e : Fin 128 → EReal) (A B C : Fin 128 → Fin 128 → EReal) (b1 : Fin 128 → EReal) (q : Fin 128) : EReal :=
  max ((((∑ k : Fin 128, max (s k) 0 * A k q) + ∑ k : Fin 128, max (d k) 0 * B k q) + ∑ k : Fin 128, e k * C k q) + b1 q) 0

/-- The second hidden layer of one row. -/
def hid2 (h : Fin 128 → EReal) (W2 : Fin 128 → Fin 25 → EReal) (b2 : Fin 25 → EReal) (q : Fin 25) : EReal :=
  max ((∑ k : Fin 128, h k * W2 k q) + b2 q) 0

/-- The score of one row. -/
def score (h : Fin 25 → EReal) (W3 : Fin 25 → EReal) (b3 : EReal) : EReal :=
  Ideal.logistic ((∑ k : Fin 25, h k * W3 k) + b3)

/-- One row's score from its three input rows and the weights. -/
def rowScore (s d e : Fin 128 → EReal) (A B C : Fin 128 → Fin 128 → EReal) (b1 : Fin 128 → EReal)
    (W2 : Fin 128 → Fin 25 → EReal) (b2 : Fin 25 → EReal) (W3 : Fin 25 → EReal) (b3 : EReal) : EReal :=
  score (hid2 (hid1 s d e A B C b1) W2 b2) W3 b3

/-! ## All edges at once -/

/-- The row a place of a [400000, 1] array lies in. -/
def rowOf (i : (⟨2, ![400000, 1]⟩ : Shape).Idx) : Fin 400000 := ⟨(i 0).val, (i 0).isLt⟩

/-- The place (R, z) lies in row R. -/
theorem rowOf_ix2 (R : Fin 400000) (z : Fin 1) : rowOf (ix2 R z) = R := rfl

/-- The scores of all 400000 edges, as a [400000, 1] array: entry (R, 0) is the score of row R of the three
    [400000, 128] arrays under the weights, the first weight read band by band. -/
def scores (xs xd ea : (⟨2, ![400000, 128]⟩ : Shape).Idx → EReal) (W1 : (⟨2, ![384, 128]⟩ : Shape).Idx → EReal)
    (b1 : (⟨1, ![128]⟩ : Shape).Idx → EReal) (W2 : (⟨2, ![128, 25]⟩ : Shape).Idx → EReal) (b2 : (⟨1, ![25]⟩ : Shape).Idx → EReal)
    (W3 : (⟨2, ![25, 1]⟩ : Shape).Idx → EReal) (b3 : (⟨1, ![1]⟩ : Shape).Idx → EReal) :
    (⟨2, ![400000, 1]⟩ : Shape).Idx → EReal :=
  fun i => rowScore (fun k => xs (ix2 (rowOf i) k)) (fun k => xd (ix2 (rowOf i) k)) (fun k => ea (ix2 (rowOf i) k))
    (fun k q => W1 (ix2 (band0 k) q)) (fun k q => W1 (ix2 (band1 k) q)) (fun k q => W1 (ix2 (band2 k) q)) (fun q => b1 (ix1 q))
    (fun k q => W2 (ix2 k q)) (fun q => b2 (ix1 q)) (fun k => W3 (ix2 k (0 : Fin 1))) (b3 (ix1 (0 : Fin 1)))

end Cert.EdgeHead

end
-- ==== Proof.KernelValue.lean ====
/-
  What each launch leaves in its output array, as one function of the arrays it finds.

  A launch walks 50 grid points; point t stages rows 8000·t … 8000·t + 7999 of the three [400000, 128] operand arrays
  and the whole of every weight array, and writes back rows 8000·t … 8000·t + 7999 of the [400000, 1] output. The body
  scores each staged row by itself, so the row R = 8000·t + r of the output is the score of row R of the operand
  arrays: the 50 blocks are restrictions of ONE whole-array function, `scoresK`, and they tile the output, so after
  the launch the output array IS that function of the arrays the launch found.
-/
import proofs.«179008_j46574625358326_1_alg».proof.Proof.Gen.KernelIdeal.Frame
import proofs.«179008_j46574625358326_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/-- All rows' scores in the launch's operand layout: three [400000, 128] operand arrays, the first weight as its three
    [128, 128] bands, each bias as a one-row array. Entry (R, 0) is the score of row R. -/
def scoresK (xs xd ea : S400000x128.Idx → EReal) (A B C : S128x128.Idx → EReal) (b1 : S1x128.Idx → EReal)
    (W2 : S128x25.Idx → EReal) (b2 : S1x25.Idx → EReal) (W3 : S25x1.Idx → EReal) (b3 : S1x1.Idx → EReal) :
    S400000x1.Idx → EReal :=
  fun i => Cert.EdgeHead.rowScore (fun k => xs (ix2 (Cert.EdgeHead.rowOf i) k)) (fun k => xd (ix2 (Cert.EdgeHead.rowOf i) k))
    (fun k => ea (ix2 (Cert.EdgeHead.rowOf i) k))
    (fun k q => A (ix2 k q)) (fun k q => B (ix2 k q)) (fun k q => C (ix2 k q)) (fun q => b1 (ix2 (0 : Fin 1) q))
    (fun k q => W2 (ix2 k q)) (fun q => b2 (ix2 (0 : Fin 1) q)) (fun k => W3 (ix2 k (0 : Fin 1))) (b3 (ix2 (0 : Fin 1) (0 : Fin 1)))

/-- What one block's entry is, in terms of the body's row-wise value: the statement the per-launch payload lemmas have. -/
abbrev RowwiseBody (out : Vec Ideal S8000x128 .bf16 → Vec Ideal S8000x128 .bf16 → Vec Ideal S8000x128 .bf16 →
    Vec Ideal S128x128 .bf16 → Vec Ideal S128x128 .bf16 → Vec Ideal S128x128 .bf16 → Vec Ideal S1x128 .f32 →
    Vec Ideal S128x25 .bf16 → Vec Ideal S1x25 .f32 → Vec Ideal S25x1 .bf16 → Vec Ideal S1x1 .f32 → Vec Ideal S8000x1 .f32) : Prop :=
  ∀ (x0 x1 x2 : Vec Ideal S8000x128 .bf16) (x3 x4 x5 : Vec Ideal S128x128 .bf16) (x6 : Vec Ideal S1x128 .f32)
    (x7 : Vec Ideal S128x25 .bf16) (x8 : Vec Ideal S1x25 .f32) (x9 : Vec Ideal S25x1 .bf16) (x10 : Vec Ideal S1x1 .f32) (r : Fin 8000),
    out x0 x1 x2 x3 x4 x5 x6 x7 x8 x9 x10 (ix2 r (0 : Fin 1))
      = Cert.EdgeHead.rowScore (fun k => x0 (ix2 r k)) (fun k => x1 (ix2 r k)) (fun k => x2 (ix2 r k))
          (fun k q => x3 (ix2 k q)) (fun k q => x4 (ix2 k q)) (fun k q => x5 (ix2 k q)) (fun q => x6 (ix2 (0 : Fin 1) q))
          (fun k q => x7 (ix2 k q)) (fun q => x8 (ix2 (0 : Fin 1) q)) (fun k => x9 (ix2 k (0 : Fin 1))) (x10 (ix2 (0 : Fin 1) (0 : Fin 1)))

/-- Entry (r, 0) of a block is the whole-array function at (R, 0), as soon as row r of each operand block is row R of
    its array and the staged weights are the weight arrays. -/
theorem entry_of_rowwise {out} (hout : RowwiseBody out)
    (x0 x1 x2 : Vec Ideal S8000x128 .bf16) (x3 x4 x5 : Vec Ideal S128x128 .bf16) (x6 : Vec Ideal S1x128 .f32)
    (x7 : Vec Ideal S128x25 .bf16) (x8 : Vec Ideal S1x25 .f32) (x9 : Vec Ideal S25x1 .bf16) (x10 : Vec Ideal S1x1 .f32)
    (xs xd ea : S400000x128.Idx → EReal) (A B C : S128x128.Idx → EReal) (b1 : S1x128.Idx → EReal)
    (W2 : S128x25.Idx → EReal) (b2 : S1x25.Idx → EReal) (W3 : S25x1.Idx → EReal) (b3 : S1x1.Idx → EReal)
    (r : Fin 8000) (R : Fin 400000)
    (h0 : ∀ k : Fin 128, x0 (ix2 r k) = xs (ix2 R k))
    (h1 : ∀ k : Fin 128, x1 (ix2 r k) = xd (ix2 R k))
    (h2 : ∀ k : Fin 128, x2 (ix2 r k) = ea (ix2 R k))
    (h3 : ∀ (k q : Fin 128), x3 (ix2 k q) = A (ix2 k q)) (h4 : ∀ (k q : Fin 128), x4 (ix2 k q) = B (ix2 k q))
    (h5 : ∀ (k q : Fin 128), x5 (ix2 k q) = C (ix2 k q)) (h6 : ∀ q : Fin 128, x6 (ix2 (0 : Fin 1) q) = b1 (ix2 (0 : Fin 1) q))
    (h7 : ∀ (k : Fin 128) (q : Fin 25), x7 (ix2 k q) = W2 (ix2 k q)) (h8 : ∀ q : Fin 25, x8 (ix2 (0 : Fin 1) q) = b2 (ix2 (0 : Fin 1) q))
    (h9 : ∀ k : Fin 25, x9 (ix2 k (0 : Fin 1)) = W3 (ix2 k (0 : Fin 1)))
    (h10 : x10 (ix2 (0 : Fin 1) (0 : Fin 1)) = b3 (ix2 (0 : Fin 1) (0 : Fin 1))) :
    out x0 x1 x2 x3 x4 x5 x6 x7 x8 x9 x10 (ix2 r (0 : Fin 1)) = scoresK xs xd ea A B C b1 W2 b2 W3 b3 (ix2 R (0 : Fin 1)) := by
  rw [hout]
  unfold scoresK
  simp only [Cert.EdgeHead.rowOf_ix2, h0, h1, h2, h3, h4, h5, h6, h7, h8, h9, h10]

end Cert.KernelIdeal.RegionValue

end
-- ==== Proof.KernelValueFirst.lean ====
/-
  The first launch: its output array after the launch is the whole-array function of the arrays it found.

  Point t of the 50-point grid stages rows 8000·t … 8000·t + 7999 of the three operand arrays and every weight array
  whole; the block it writes back is rows 8000·t … 8000·t + 7999 of the output. Row r of that block is the score of row
  8000·t + r of the operand arrays, so every block is a restriction of the one function, and row R of the output lies in
  the block of point R / 8000: the blocks tile the output.
-/
import proofs.«179008_j46574625358326_1_alg».proof.Proof.KernelValue

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

section First
variable (V : (c : Dev nD) → (b : Ref sig .tc) → Buf (Elt Ideal) ((c : Thread nD τ).loc b))

/-- The index maps of this launch over its grid: the three operand windows and the output move down the rows with the
    point; every weight window stays at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- What point t of this launch writes back is block t of the whole-array function of the arrays the launch finds. -/
theorem flushed0_eq (hout : RowwiseBody (out0_11 (F := Ideal))) (c : Dev nD) (t : Fin cfg0.N) :
    (dat0 V c).flushed 11 t = ((cfg0.win 11).blk t).view.read (Elt Ideal)
      (scoresK (V c main_v20) (V c main_v27) (V c main_v28) (V c main_v4) (V c main_v5) (V c main_v6) (V c main_v7) (V c main_v2) (V c main_v8) (V c main_v3) (V c main_v9)) := by
  show (cfg0.win 11).cut (grid0.coords t) ((dat0 V c).after 11 t) = _
  rw [after0_11]
  obtain ⟨e00, e01, e10, e11, e20, e21, e30, e31, e40, e41, e50, e51, e60, e61, e70, e71, e80, e81, e90, e91, ea0, ea1, eb0, eb1⟩ := idx_facts0 t
  have ht : t.val < 50 := lt_of_lt_of_eq t.isLt N_0
  funext j
  obtain ⟨r, rfl⟩ : ∃ r : Fin 8000, j = ix2 r (0 : Fin 1) := ⟨⟨(j 0).val, (j 0).isLt⟩, funext fun a => by
    match a with
    | ⟨0, _⟩ => rfl
    | ⟨1, _⟩ => exact Fin.ext (by have h : (j 1).val < 1 := (j 1).isLt; show (j 1).val = 0; omega)⟩
  have hr : r.val < 8000 := r.isLt
  have hR : t.val * 8000 + r.val < 400000 := by omega
  have hemb : ((cfg0.win 11).blk t).view.emb (ix2 r (0 : Fin 1)) = ix2 (⟨t.val * 8000 + r.val, hR⟩ : Fin 400000) (0 : Fin 1) :=
    funext fun a => Fin.ext (by
      match a with
      | ⟨0, _⟩ => show win0_11.index t (0 : Fin 2) * 8000 + 1 * r.val = t.val * 8000 + r.val; omega
      | ⟨1, _⟩ => show win0_11.index t (1 : Fin 2) * 1 + 1 * 0 = 0; omega)
  show out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r (0 : Fin 1))
    = scoresK (V c main_v20) (V c main_v27) (V c main_v28) (V c main_v4) (V c main_v5) (V c main_v6) (V c main_v7) (V c main_v2) (V c main_v8) (V c main_v3) (V c main_v9) (((cfg0.win 11).blk t).view.emb (ix2 r (0 : Fin 1)))
  rw [hemb]
  refine entry_of_rowwise hout (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (V c main_v20) (V c main_v27) (V c main_v28) (V c main_v4) (V c main_v5) (V c main_v6) (V c main_v7) (V c main_v2) (V c main_v8) (V c main_v3) (V c main_v9) r ⟨t.val * 8000 + r.val, hR⟩ ?_ ?_ ?_ ?_ ?_ ?_ ?_ ?_ ?_ ?_ ?_
  · intro k
    show V c main_v20 (((cfg0.win 0).blk t).view.emb (ix2 r k)) = V c main_v20 (ix2 (⟨t.val * 8000 + r.val, hR⟩ : Fin 400000) k)
    refine congrArg _ (funext fun a => Fin.ext ?_)
    match a with
    | ⟨0, _⟩ => show win0_0.index t (0 : Fin 2) * 8000 + 1 * r.val = t.val * 8000 + r.val; omega
    | ⟨1, _⟩ => show win0_0.index t (1 : Fin 2) * 128 + 1 * k.val = k.val; omega
  · intro k
    show V c main_v27 (((cfg0.win 1).blk t).view.emb (ix2 r k)) = V c main_v27 (ix2 (⟨t.val * 8000 + r.val, hR⟩ : Fin 400000) k)
    refine congrArg _ (funext fun a => Fin.ext ?_)
    match a with
    | ⟨0, _⟩ => show win0_1.index t (0 : Fin 2) * 8000 + 1 * r.val = t.val * 8000 + r.val; omega
    | ⟨1, _⟩ => show win0_1.index t (1 : Fin 2) * 128 + 1 * k.val = k.val; omega
  · intro k
    show V c main_v28 (((cfg0.win 2).blk t).view.emb (ix2 r k)) = V c main_v28 (ix2 (⟨t.val * 8000 + r.val, hR⟩ : Fin 400000) k)
    refine congrArg _ (funext fun a => Fin.ext ?_)
    match a with
    | ⟨0, _⟩ => show win0_2.index t (0 : Fin 2) * 8000 + 1 * r.val = t.val * 8000 + r.val; omega
    | ⟨1, _⟩ => show win0_2.index t (1 : Fin 2) * 128 + 1 * k.val = k.val; omega
  · intro k q
    show V c main_v4 (((cfg0.win 3).blk t).view.emb (ix2 k q)) = V c main_v4 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro k q
    show V c main_v5 (((cfg0.win 4).blk t).view.emb (ix2 k q)) = V c main_v5 (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · intro k q
    show V c main_v6 (((cfg0.win 5).blk t).view.emb (ix2 k q)) = V c main_v6 (ix2 k q)
    refine congrArg _ (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega
  · intro q
    show V c main_v7 (((cfg0.win 6).blk t).view.emb (ix2 (0 : Fin 1) q)) = V c main_v7 (ix2 (0 : Fin 1) q)
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * q.val = q.val; omega
  · intro k q
    show V c main_v2 (((cfg0.win 7).blk t).view.emb (ix2 k q)) = V c main_v2 (ix2 k q)
    refine congrArg _ (funext fun a => Fin.ext ?_)
    match a with
    | ⟨0, _⟩ => show win0_7.index t (0 : Fin 2) * 128 + 1 * k.val = k.val; omega
    | ⟨1, _⟩ => show win0_7.index t (1 : Fin 2) * 25 + 1 * q.val = q.val; omega
  · intro q
    show V c main_v8 (((cfg0.win 8).blk t).view.emb (ix2 (0 : Fin 1) q)) = V c main_v8 (ix2 (0 : Fin 1) q)
    refine congrArg _ (funext fun a => Fin.ext ?_)
    match a with
    | ⟨0, _⟩ => show win0_8.index t (0 : Fin 2) * 1 + 1 * 0 = 0; omega
    | ⟨1, _⟩ => show win0_8.index t (1 : Fin 2) * 25 + 1 * q.val = q.val; omega
  · intro k
    show V c main_v3 (((cfg0.win 9).blk t).view.emb (ix2 k (0 : Fin 1))) = V c main_v3 (ix2 k (0 : Fin 1))
    refine congrArg _ (funext fun a => Fin.ext ?_)
    match a with
    | ⟨0, _⟩ => show win0_9.index t (0 : Fin 2) * 25 + 1 * k.val = k.val; omega
    | ⟨1, _⟩ => show win0_9.index t (1 : Fin 2) * 1 + 1 * 0 = 0; omega
  · show V c main_v9 (((cfg0.win 10).blk t).view.emb (ix2 (0 : Fin 1) (0 : Fin 1))) = V c main_v9 (ix2 (0 : Fin 1) (0 : Fin 1))
    refine congrArg _ (funext fun a => Fin.ext ?_)
    match a with
    | ⟨0, _⟩ => show win0_10.index t (0 : Fin 2) * 1 + 1 * 0 = 0; omega
    | ⟨1, _⟩ => show win0_10.index t (1 : Fin 2) * 1 + 1 * 0 = 0; omega

/-- A place of the output array is in point t's block iff each coordinate is in the block's range on its axis. -/
theorem mem_blk0 (t : Fin cfg0.N) (i : S400000x1.Idx) :
    i ∈ ((cfg0.win 11).blk t).view.set ↔ ∀ a : Fin 2, win0_11.index t a * S8000x1.size a ≤ (i a).val ∧ (i a).val < win0_11.index t a * S8000x1.size a + S8000x1.size a := by
  show i ∈ ((View.whole main_v29).slice (win0_11.rect t)).set ↔ _
  rw [View.set_slice_whole, Rect.mem_set_unit]
  exact Iff.rfl

/-- Row R of the output is in the block of the point R / 8000: the 50 blocks tile the array. -/
theorem cover0 (i : S400000x1.Idx) : ∃ t : Fin cfg0.N, (cfg0.win 11).flush t = true ∧ i ∈ ((cfg0.win 11).blk t).view.set := by
  have hi0 : (i 0).val < 400000 := (i 0).isLt
  have hi1 : (i 1).val < 1 := (i 1).isLt
  have ht : (i 0).val / 8000 < cfg0.N := lt_of_lt_of_eq (by omega : (i 0).val / 8000 < 50) N_0.symm
  refine ⟨⟨(i 0).val / 8000, ht⟩, flush0_11 _, ?_⟩
  rw [mem_blk0]
  obtain ⟨e00, e01, e10, e11, e20, e21, e30, e31, e40, e41, e50, e51, e60, e61, e70, e71, e80, e81, e90, e91, ea0, ea1, eb0, eb1⟩ := idx_facts0 ⟨(i 0).val / 8000, ht⟩
  intro a
  match a with
  | ⟨0, _⟩ =>
    show win0_11.index ⟨(i 0).val / 8000, ht⟩ (0 : Fin 2) * 8000 ≤ (i 0).val ∧ (i 0).val < win0_11.index ⟨(i 0).val / 8000, ht⟩ (0 : Fin 2) * 8000 + 8000
    rw [eb0]
    show (i 0).val / 8000 * 8000 ≤ (i 0).val ∧ (i 0).val < (i 0).val / 8000 * 8000 + 8000
    omega
  | ⟨1, _⟩ =>
    show win0_11.index ⟨(i 0).val / 8000, ht⟩ (1 : Fin 2) * 1 ≤ (i 1).val ∧ (i 1).val < win0_11.index ⟨(i 0).val / 8000, ht⟩ (1 : Fin 2) * 1 + 1
    rw [eb1]
    omega

/-- After this launch its output array is the whole-array function of the arrays the launch found. -/
theorem final0 (hout : RowwiseBody (out0_11 (F := Ideal))) (c : Dev nD) :
    (dat0 V c).arrAt 11 cfg0.N = scoresK (V c main_v20) (V c main_v27) (V c main_v28) (V c main_v4) (V c main_v5) (V c main_v6) (V c main_v7) (V c main_v2) (V c main_v8) (V c main_v3) (V c main_v9) :=
  (dat0 V c).arrAt_eq_of_cover 11 _ (fun t _ => flushed0_eq V hout c t) (cover0)

end First

end Cert.KernelIdeal.RegionValue

end
-- ==== Proof.KernelValueSecond.lean ====
/-
  The second launch: its output array after the launch is the whole-array function of the arrays it found.

  Point t of the 50-point grid stages rows 8000·t … 8000·t + 7999 of the three operand arrays and every weight array
  whole; the block it writes back is rows 8000·t … 8000·t + 7999 of the output. Row r of that block is the score of row
  8000·t + r of the operand arrays, so every block is a restriction of the one function, and row R of the output lies in
  the block of point R / 8000: the blocks tile the output.
-/
import proofs.«179008_j46574625358326_1_alg».proof.Proof.KernelValue

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

section Second
variable (V : (c : Dev nD) → (b : Ref sig .tc) → Buf (Elt Ideal) ((c : Thread nD τ).loc b))

/-- The index maps of this launch over its grid: the three operand windows and the output move down the rows with the
    point; every weight window stays at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

/-- What point t of this launch writes back is block t of the whole-array function of the arrays the launch finds. -/
theorem flushed1_eq (hout : RowwiseBody (out1_11 (F := Ideal))) (c : Dev nD) (t : Fin cfg1.N) :
    (dat1 V c).flushed 11 t = ((cfg1.win 11).blk t).view.read (Elt Ideal)
      (scoresK (V c main_v40) (V c main_v47) (V c main_v48) (V c main_v4) (V c main_v5) (V c main_v6) (V c main_v7) (V c main_v2) (V c main_v8) (V c main_v3) (V c main_v9)) := by
  show (cfg1.win 11).cut (grid1.coords t) ((dat1 V c).after 11 t) = _
  rw [after1_11]
  obtain ⟨e00, e01, e10, e11, e20, e21, e30, e31, e40, e41, e50, e51, e60, e61, e70, e71, e80, e81, e90, e91, ea0, ea1, eb0, eb1⟩ := idx_facts1 t
  have ht : t.val < 50 := lt_of_lt_of_eq t.isLt N_1
  funext j
  obtain ⟨r, rfl⟩ : ∃ r : Fin 8000, j = ix2 r (0 : Fin 1) := ⟨⟨(j 0).val, (j 0).isLt⟩, funext fun a => by
    match a with
    | ⟨0, _⟩ => rfl
    | ⟨1, _⟩ => exact Fin.ext (by have h : (j 1).val < 1 := (j 1).isLt; show (j 1).val = 0; omega)⟩
  have hr : r.val < 8000 := r.isLt
  have hR : t.val * 8000 + r.val < 400000 := by omega
  have hemb : ((cfg1.win 11).blk t).view.emb (ix2 r (0 : Fin 1)) = ix2 (⟨t.val * 8000 + r.val, hR⟩ : Fin 400000) (0 : Fin 1) :=
    funext fun a => Fin.ext (by
      match a with
      | ⟨0, _⟩ => show win1_11.index t (0 : Fin 2) * 8000 + 1 * r.val = t.val * 8000 + r.val; omega
      | ⟨1, _⟩ => show win1_11.index t (1 : Fin 2) * 1 + 1 * 0 = 0; omega)
  show out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 r (0 : Fin 1))
    = scoresK (V c main_v40) (V c main_v47) (V c main_v48) (V c main_v4) (V c main_v5) (V c main_v6) (V c main_v7) (V c main_v2) (V c main_v8) (V c main_v3) (V c main_v9) (((cfg1.win 11).blk t).view.emb (ix2 r (0 : Fin 1)))
  rw [hemb]
  refine entry_of_rowwise hout (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    (V c main_v40) (V c main_v47) (V c main_v48) (V c main_v4) (V c main_v5) (V c main_v6) (V c main_v7) (V c main_v2) (V c main_v8) (V c main_v3) (V c main_v9) r ⟨t.val * 8000 + r.val, hR⟩ ?_ ?_ ?_ ?_ ?_ ?_ ?_ ?_ ?_ ?_ ?_
  · intro k
    show V c main_v40 (((cfg1.win 0).blk t).view.emb (ix2 r k)) = V c main_v40 (ix2 (⟨t.val * 8000 + r.val, hR⟩ : Fin 400000) k)
    refine congrArg _ (funext fun a => Fin.ext ?_)
    match a with
    | ⟨0, _⟩ => show win1_0.index t (0 : Fin 2) * 8000 + 1 * r.val = t.val * 8000 + r.val; omega
    | ⟨1, _⟩ => show win1_0.index t (1 : Fin 2) * 128 + 1 * k.val = k.val; omega
  · intro k
    show V c main_v47 (((cfg1.win 1).blk t).view.emb (ix2 r k)) = V c main_v47 (ix2 (⟨t.val * 8000 + r.val, hR⟩ : Fin 400000) k)
    refine congrArg _ (funext fun a => Fin.ext ?_)
    match a with
    | ⟨0, _⟩ => show win1_1.index t (0 : Fin 2) * 8000 + 1 * r.val = t.val * 8000 + r.val; omega
    | ⟨1, _⟩ => show win1_1.index t (1 : Fin 2) * 128 + 1 * k.val = k.val; omega
  · intro k
    show V c main_v48 (((cfg1.win 2).blk t).view.emb (ix2 r k)) = V c main_v48 (ix2 (⟨t.val * 8000 + r.val, hR⟩ : Fin 400000) k)
    refine congrArg _ (funext fun a => Fin.ext ?_)
    match a with
    | ⟨0, _⟩ => show win1_2.index t (0 : Fin 2) * 8000 + 1 * r.val = t.val * 8000 + r.val; omega
    | ⟨1, _⟩ => show win1_2.index t (1 : Fin 2) * 128 + 1 * k.val = k.val; omega
  · intro k q
    show V c main_v4 (((cfg1.win 3).blk t).view.emb (ix2 k q)) = V c main_v4 (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro k q
    show V c main_v5 (((cfg1.win 4).blk t).view.emb (ix2 k q)) = V c main_v5 (ix2 k q)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · intro k q
    show V c main_v6 (((cfg1.win 5).blk t).view.emb (ix2 k q)) = V c main_v6 (ix2 k q)
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * q.val = q.val; omega
  · intro q
    show V c main_v7 (((cfg1.win 6).blk t).view.emb (ix2 (0 : Fin 1) q)) = V c main_v7 (ix2 (0 : Fin 1) q)
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * q.val = q.val; omega
  · intro k q
    show V c main_v2 (((cfg1.win 7).blk t).view.emb (ix2 k q)) = V c main_v2 (ix2 k q)
    refine congrArg _ (funext fun a => Fin.ext ?_)
    match a with
    | ⟨0, _⟩ => show win1_7.index t (0 : Fin 2) * 128 + 1 * k.val = k.val; omega
    | ⟨1, _⟩ => show win1_7.index t (1 : Fin 2) * 25 + 1 * q.val = q.val; omega
  · intro q
    show V c main_v8 (((cfg1.win 8).blk t).view.emb (ix2 (0 : Fin 1) q)) = V c main_v8 (ix2 (0 : Fin 1) q)
    refine congrArg _ (funext fun a => Fin.ext ?_)
    match a with
    | ⟨0, _⟩ => show win1_8.index t (0 : Fin 2) * 1 + 1 * 0 = 0; omega
    | ⟨1, _⟩ => show win1_8.index t (1 : Fin 2) * 25 + 1 * q.val = q.val; omega
  · intro k
    show V c main_v3 (((cfg1.win 9).blk t).view.emb (ix2 k (0 : Fin 1))) = V c main_v3 (ix2 k (0 : Fin 1))
    refine congrArg _ (funext fun a => Fin.ext ?_)
    match a with
    | ⟨0, _⟩ => show win1_9.index t (0 : Fin 2) * 25 + 1 * k.val = k.val; omega
    | ⟨1, _⟩ => show win1_9.index t (1 : Fin 2) * 1 + 1 * 0 = 0; omega
  · show V c main_v9 (((cfg1.win 10).blk t).view.emb (ix2 (0 : Fin 1) (0 : Fin 1))) = V c main_v9 (ix2 (0 : Fin 1) (0 : Fin 1))
    refine congrArg _ (funext fun a => Fin.ext ?_)
    match a with
    | ⟨0, _⟩ => show win1_10.index t (0 : Fin 2) * 1 + 1 * 0 = 0; omega
    | ⟨1, _⟩ => show win1_10.index t (1 : Fin 2) * 1 + 1 * 0 = 0; omega

/-- A place of the output array is in point t's block iff each coordinate is in the block's range on its axis. -/
theorem mem_blk1 (t : Fin cfg1.N) (i : S400000x1.Idx) :
    i ∈ ((cfg1.win 11).blk t).view.set ↔ ∀ a : Fin 2, win1_11.index t a * S8000x1.size a ≤ (i a).val ∧ (i a).val < win1_11.index t a * S8000x1.size a + S8000x1.size a := by
  show i ∈ ((View.whole main_v49).slice (win1_11.rect t)).set ↔ _
  rw [View.set_slice_whole, Rect.mem_set_unit]
  exact Iff.rfl

/-- Row R of the output is in the block of the point R / 8000: the 50 blocks tile the array. -/
theorem cover1 (i : S400000x1.Idx) : ∃ t : Fin cfg1.N, (cfg1.win 11).flush t = true ∧ i ∈ ((cfg1.win 11).blk t).view.set := by
  have hi0 : (i 0).val < 400000 := (i 0).isLt
  have hi1 : (i 1).val < 1 := (i 1).isLt
  have ht : (i 0).val / 8000 < cfg1.N := lt_of_lt_of_eq (by omega : (i 0).val / 8000 < 50) N_1.symm
  refine ⟨⟨(i 0).val / 8000, ht⟩, flush1_11 _, ?_⟩
  rw [mem_blk1]
  obtain ⟨e00, e01, e10, e11, e20, e21, e30, e31, e40, e41, e50, e51, e60, e61, e70, e71, e80, e81, e90, e91, ea0, ea1, eb0, eb1⟩ := idx_facts1 ⟨(i 0).val / 8000, ht⟩
  intro a
  match a with
  | ⟨0, _⟩ =>
    show win1_11.index ⟨(i 0).val / 8000, ht⟩ (0 : Fin 2) * 8000 ≤ (i 0).val ∧ (i 0).val < win1_11.index ⟨(i 0).val / 8000, ht⟩ (0 : Fin 2) * 8000 + 8000
    rw [eb0]
    show (i 0).val / 8000 * 8000 ≤ (i 0).val ∧ (i 0).val < (i 0).val / 8000 * 8000 + 8000
    omega
  | ⟨1, _⟩ =>
    show win1_11.index ⟨(i 0).val / 8000, ht⟩ (1 : Fin 2) * 1 ≤ (i 1).val ∧ (i 1).val < win1_11.index ⟨(i 0).val / 8000, ht⟩ (1 : Fin 2) * 1 + 1
    rw [eb1]
    omega

/-- After this launch its output array is the whole-array function of the arrays the launch found. -/
theorem final1 (hout : RowwiseBody (out1_11 (F := Ideal))) (c : Dev nD) :
    (dat1 V c).arrAt 11 cfg1.N = scoresK (V c main_v40) (V c main_v47) (V c main_v48) (V c main_v4) (V c main_v5) (V c main_v6) (V c main_v7) (V c main_v2) (V c main_v8) (V c main_v3) (V c main_v9) :=
  (dat1 V c).arrAt_eq_of_cover 11 _ (fun t _ => flushed1_eq V hout c t) (cover1)

end Second

end Cert.KernelIdeal.RegionValue

end
-- ==== Proof.Payload.lean ====
/-
  The kernel body's arithmetic, read one entry at a time.

  The body loads eleven whole blocks — three [8000,128] blocks of input rows, the three [128,128] bands of the first
  weight, the first bias row, the [128,25] second weight and its bias row, the [25,1] third weight and its bias — and
  stores one [8000,1] block. Read at the exact values, every cast between number formats is the identity and a reshaping
  to the same shape changes nothing; a bias row spread over the 8000 rows reads the row's entry in every row; the literal
  the relus compare with and the products accumulate into is the number 0; and the product of an [m,n] block by an [n,p]
  block into a zero accumulator is, at entry (r,q), the sum over k of lhs(r,k) · rhs(k,q). Put together, entry (r,0) of
  the stored block is the score of row r of the three input blocks under the weights (`Cert.EdgeHead.rowScore`): the
  first layer as the sum of its three band products, then the two further layers, then the logistic.

  The second launch runs the same body on other blocks, so its stored block is the same function of its loads.
-/
import proofs.«179008_j46574625358326_1_alg».proof.Proof.Gen.KernelIdeal.Frame
import proofs.«179008_j46574625358326_1_alg».proof.Proof.Spec
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The literals

The body's three float literals are zero patterns: the bf16 one the two input relus compare with, the f32 one the two
hidden relus compare with and the three products accumulate into. -/

/-- The bf16 pattern of all zero bits is the number 0. -/
theorem ofBits_zero_bf16 : Ideal.ofBits .bf16 0x0000#16 = 0 := by simp [Ideal.ofBits, Ideal.ieee]

/-- The bf16 zero as a scalar constant. -/
theorem scalar_zero_bf16 : (Scalar.ofBits (F := Ideal) .bf16 0x0000#16 : EReal) = 0 :=
  (show (Scalar.ofBits (F := Ideal) .bf16 0x0000#16 : EReal) = Ideal.ofBits .bf16 0x0000#16 from rfl).trans ofBits_zero_bf16

/-- The f32 zero as a scalar constant. -/
theorem scalar_zero_f32 : (Scalar.ofBits (F := Ideal) .f32 0x00000000#32 : EReal) = 0 :=
  (show (Scalar.ofBits (F := Ideal) .f32 0x00000000#32 : EReal) = Ideal.ofBits .f32 0x00000000#32 from rfl).trans Ideal.ofBits_zero_f32

/-! ## A product into a zero accumulator, at an entry

Each of the body's three products contracts the left operand's columns with the right operand's rows. For each, four
coordinate facts: at output entry `i` and summation index `q` the left operand is read at (row of `i`, `q`) and the right
operand at (`q`, column of `i`). A sum over the one-axis summation index is a sum over `k` below the contracted extent,
so the product's entry (r, q) is the sum over k of lhs(r,k) · rhs(k,q). -/

/-! ### [8000,128] × [128,128] -/

theorem lhsA_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsA_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhsA_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhsA_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A [8000,128] by [128,128] product into the zero accumulator, at entry (r, q): the sum over k of
    lhs(r,k) · rhs(k,q). -/
theorem matmulA_apply (A : FVec Ideal S8000x128 .bf16) (B : FVec Ideal S128x128 .bf16) (r : Fin 8000) (q : Fin 128) :
    matmul dot_S8000x128_S128x128_S8000x128_1_0_0_1_n_n none A B (constant (F := Ideal) S8000x128 .f32 0x00000000#32) (ix2 r q)
      = ∑ k : Fin 128, (A (ix2 r k) * B (ix2 k q) : EReal) := by
  refine (Ideal.matmul_constant_zero_apply dot_S8000x128_S128x128_S8000x128_1_0_0_1_n_n none A B (ix2 r q)).trans ?_
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 r q) ((ValueIdx.contrEquiv1 dot_S8000x128_S128x128_S8000x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S8000x128_S128x128_S8000x128_1_0_0_1_n_n.rhsIdx (ix2 r q) ((ValueIdx.contrEquiv1 dot_S8000x128_S128x128_S8000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### [8000,128] × [128,25] -/

theorem lhsB_0 (i : S8000x25.Idx) (q : dot_S8000x128_S128x25_S8000x25_1_0_0_1_n_n.contr.Idx) :
    (dot_S8000x128_S128x25_S8000x25_1_0_0_1_n_n.lhsIdx i q 0).val = (i 0).val := by
  unfold DotDims.lhsIdx
  rw [dif_neg (show ¬(0 : Fin S8000x128.rank) ∈ dot_S8000x128_S128x25_S8000x25_1_0_0_1_n_n.lhsBatch by decide), dif_pos (show (0 : Fin S8000x128.rank) ∈ dot_S8000x128_S128x25_S8000x25_1_0_0_1_n_n.lhsNonContracting by decide)]
  rfl
theorem lhsB_1 (i : S8000x25.Idx) (q : dot_S8000x128_S128x25_S8000x25_1_0_0_1_n_n.contr.Idx) :
    (dot_S8000x128_S128x25_S8000x25_1_0_0_1_n_n.lhsIdx i q 1).val = (q ⟨0, by decide⟩).val :=
  dot_S8000x128_S128x25_S8000x25_1_0_0_1_n_n.lhsIdx_val_of_single rfl i q
theorem rhsB_0 (i : S8000x25.Idx) (q : dot_S8000x128_S128x25_S8000x25_1_0_0_1_n_n.contr.Idx) :
    (dot_S8000x128_S128x25_S8000x25_1_0_0_1_n_n.rhsIdx i q 0).val = (q ⟨0, by decide⟩).val :=
  dot_S8000x128_S128x25_S8000x25_1_0_0_1_n_n.rhsIdx_val_of_single rfl i q
theorem rhsB_1 (i : S8000x25.Idx) (q : dot_S8000x128_S128x25_S8000x25_1_0_0_1_n_n.contr.Idx) :
    (dot_S8000x128_S128x25_S8000x25_1_0_0_1_n_n.rhsIdx i q 1).val = (i 1).val := by
  unfold DotDims.rhsIdx
  rw [dif_neg (show ¬(1 : Fin S128x25.rank) ∈ dot_S8000x128_S128x25_S8000x25_1_0_0_1_n_n.rhsBatch by decide), dif_pos (show (1 : Fin S128x25.rank) ∈ dot_S8000x128_S128x25_S8000x25_1_0_0_1_n_n.rhsNonContracting by decide)]
  rfl

/-- A [8000,128] by [128,25] product into the zero accumulator, at entry (r, q): the sum over k of
    lhs(r,k) · rhs(k,q). -/
theorem matmulB_apply (A : FVec Ideal S8000x128 .bf16) (B : FVec Ideal S128x25 .bf16) (r : Fin 8000) (q : Fin 25) :
    matmul dot_S8000x128_S128x25_S8000x25_1_0_0_1_n_n none A B (constant (F := Ideal) S8000x25 .f32 0x00000000#32) (ix2 r q)
      = ∑ k : Fin 128, (A (ix2 r k) * B (ix2 k q) : EReal) := by
  refine (Ideal.matmul_constant_zero_apply dot_S8000x128_S128x25_S8000x25_1_0_0_1_n_n none A B (ix2 r q)).trans ?_
  rw [← Equiv.sum_comp (ValueIdx.contrEquiv1 dot_S8000x128_S128x25_S8000x25_1_0_0_1_n_n 128 rfl rfl).symm]
  refine Finset.sum_congr rfl fun k _ => ?_
  have hk := ValueIdx.contrEquiv1_symm_val dot_S8000x128_S128x25_S8000x25_1_0_0_1_n_n 128 rfl rfl k
  have el : dot_S8000x128_S128x25_S8000x25_1_0_0_1_n_n.lhsIdx (ix2 r q) ((ValueIdx.contrEquiv1 dot_S8000x128_S128x25_S8000x25_1_0_0_1_n_n 128 rfl rfl).symm k) = ix2 r k := funext fun a => Fin.ext (by
    match a with
    | ⟨0, _⟩ => exact lhsB_0 _ _
    | ⟨1, _⟩ => exact (lhsB_1 _ _).trans hk)
  have er : dot_S8000x128_S128x25_S8000x25_1_0_0_1_n_n.rhsIdx (ix2 r q) ((ValueIdx.contrEquiv1 dot_S8000x128_S128x25_S8000x25_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### [8000,25] × [25,1] -/

theorem lhsC_0 (i : S8000x1.Idx) (q : dot_S8000x25_S25x1_S8000x1_1_0_0_1_n_n.contr.Idx) :
    (dot_S8000x25_S25x1_S8000x1_1_0_0_1_n_n.lhsIdx i q 0).val = (i 0).val := by
  unfold DotDims.lhsIdx
  rw [dif_neg (show ¬(0 : Fin S8000x25.rank) ∈ dot_S8000x25_S25x1_S8000x1_1_0_0_1_n_n.lhsBatch by decide), dif_pos (show (0 : Fin S8000x25.rank) ∈ dot_S8000x25_S25x1_S8000x1_1_0_0_1_n_n.lhsNonContracting by decide)]
  rfl
theorem lhsC_1 (i : S8000x1.Idx) (q : dot_S8000x25_S25x1_S8000x1_1_0_0_1_n_n.contr.Idx) :
    (dot_S8000x25_S25x1_S8000x1_1_0_0_1_n_n.lhsIdx i q 1).val = (q ⟨0, by decide⟩).val :=
  dot_S8000x25_S25x1_S8000x1_1_0_0_1_n_n.lhsIdx_val_of_single rfl i q
theorem rhsC_0 (i : S8000x1.Idx) (q : dot_S8000x25_S25x1_S8000x1_1_0_0_1_n_n.contr.Idx) :
    (dot_S8000x25_S25x1_S8000x1_1_0_0_1_n_n.rhsIdx i q 0).val = (q ⟨0, by decide⟩).val :=
  dot_S8000x25_S25x1_S8000x1_1_0_0_1_n_n.rhsIdx_val_of_single rfl i q
theorem rhsC_1 (i : S8000x1.Idx) (q : dot_S8000x25_S25x1_S8000x1_1_0_0_1_n_n.contr.Idx) :
    (dot_S8000x25_S25x1_S8000x1_1_0_0_1_n_n.rhsIdx i q 1).val = (i 1).val := by
  unfold DotDims.rhsIdx
  rw [dif_neg (show ¬(1 : Fin S25x1.rank) ∈ dot_S8000x25_S25x1_S8000x1_1_0_0_1_n_n.rhsBatch by decide), dif_pos (show (1 : Fin S25x1.rank) ∈ dot_S8000x25_S25x1_S8000x1_1_0_0_1_n_n.rhsNonContracting by decide)]
  rfl

/-- A [8000,25] by [25,1] product into the zero accumulator, at entry (r, q): the sum over k of
    lhs(r,k) · rhs(k,q). -/
theorem matmulC_apply (A : FVec Ideal S8000x25 .bf16) (B : FVec Ideal S25x1 .bf16) (r : Fin 8000) (q : Fin 1) :
    matmul dot_S8000x25_S25x1_S8000x1_1_0_0_1_n_n none A B (constant (F := Ideal) S8000x1 .f32 0x00000000#32) (ix2 r q)
      = ∑ k : Fin 25, (A (ix2 r k) * B (ix2 k q) : EReal) := by
  refine (Ideal.matmul_constant_zero_apply dot_S8000x25_S25x1_S8000x1_1_0_0_1_n_n none A B (ix2 r q)).trans ?_
  rw [← Equiv.sum_comp (ValueIdx.contrEquiv1 dot_S8000x25_S25x1_S8000x1_1_0_0_1_n_n 25 rfl rfl).symm]
  refine Finset.sum_congr rfl fun k _ => ?_
  have hk := ValueIdx.contrEquiv1_symm_val dot_S8000x25_S25x1_S8000x1_1_0_0_1_n_n 25 rfl rfl k
  have el : dot_S8000x25_S25x1_S8000x1_1_0_0_1_n_n.lhsIdx (ix2 r q) ((ValueIdx.contrEquiv1 dot_S8000x25_S25x1_S8000x1_1_0_0_1_n_n 25 rfl rfl).symm k) = ix2 r k := funext fun a => Fin.ext (by
    match a with
    | ⟨0, _⟩ => exact lhsC_0 _ _
    | ⟨1, _⟩ => exact (lhsC_1 _ _).trans hk)
  have er : dot_S8000x25_S25x1_S8000x1_1_0_0_1_n_n.rhsIdx (ix2 r q) ((ValueIdx.contrEquiv1 dot_S8000x25_S25x1_S8000x1_1_0_0_1_n_n 25 rfl rfl).symm k) = ix2 k q := funext fun a => Fin.ext (by
    match a with
    | ⟨0, _⟩ => exact (rhsC_0 _ _).trans hk
    | ⟨1, _⟩ => exact rhsC_1 _ _)
  rw [el, er]

/-! ## A bias row spread over the rows, and the logistic, at an entry -/

/-- The [1,128] bias row spread over 8000 rows reads its row 0 in every row. -/
theorem bias128_apply (b : FVec Ideal S1x128 .f32) (h : S1x128.Broadcasts S8000x128) (r : Fin 8000) (q : Fin 128) :
    broadcastTo S8000x128 b h (ix2 r q) = b (ix2 (0 : Fin 1) q) :=
  broadcastTo_apply b h (ix2 r q) (ix2 (0 : Fin 1) q) (fun a => by
    match a with
    | ⟨0, _⟩ => rfl
    | ⟨1, _⟩ => rfl)

/-- The [1,25] bias row likewise. -/
theorem bias25_apply (b : FVec Ideal S1x25 .f32) (h : S1x25.Broadcasts S8000x25) (r : Fin 8000) (q : Fin 25) :
    broadcastTo S8000x25 b h (ix2 r q) = b (ix2 (0 : Fin 1) q) :=
  broadcastTo_apply b h (ix2 r q) (ix2 (0 : Fin 1) q) (fun a => by
    match a with
    | ⟨0, _⟩ => rfl
    | ⟨1, _⟩ => rfl)

/-- The [1,1] bias likewise: its one entry in every row. -/
theorem bias1_apply (b : FVec Ideal S1x1 .f32) (h : S1x1.Broadcasts S8000x1) (r : Fin 8000) (q : Fin 1) :
    broadcastTo S8000x1 b h (ix2 r q) = b (ix2 (0 : Fin 1) (0 : Fin 1)) :=
  broadcastTo_apply b h (ix2 r q) (ix2 (0 : Fin 1) (0 : Fin 1)) (fun a => by
    match a with
    | ⟨0, _⟩ => rfl
    | ⟨1, _⟩ => rfl)

/-- The logistic of a block, entry by entry. -/
theorem logistic_apply {s : Shape} {φ : FTy} (v : FVec Ideal s φ) (i : s.Idx) : logistic v i = Ideal.logistic (v i) := rfl

/-! ## The body's three payloads at an entry -/

/-- The second bias row spread over the rows: its entry q in every row. -/
theorem k0_pay3_apply (b2 : Vec Ideal S1x25 .f32) (r : Fin 8000) (q : Fin 25) :
    k0_pay3 (F := Ideal) b2 (ix2 r q) = b2 (ix2 (0 : Fin 1) q) := by
  unfold k0_pay3
  simp only [shapeCast_self, bias25_apply]

/-- The second product: at entry (r, q), the sum over k of the first hidden layer of row r at k times the second
    weight at (k, q). The first hidden layer is the relu of the three band products' sum plus the first bias, the
    first two bands taken over the relu of their input rows. -/
theorem k0_pay2_apply (x0 x1 x2 : Vec Ideal S8000x128 .bf16) (x3 x4 x5 : Vec Ideal S128x128 .bf16) (x6 : Vec Ideal S1x128 .f32)
    (x7 : Vec Ideal S128x25 .bf16) (r : Fin 8000) (q : Fin 25) :
    k0_pay2 (F := Ideal) x0 x1 x2 x3 x4 x5 x6 x7 (ix2 r q)
      = ∑ k : Fin 128, (Cert.EdgeHead.hid1 (fun j => x0 (ix2 r j)) (fun j => x1 (ix2 r j)) (fun j => x2 (ix2 r j))
          (fun j p => x3 (ix2 j p)) (fun j p => x4 (ix2 j p)) (fun j p => x5 (ix2 j p)) (fun p => x6 (ix2 (0 : Fin 1) p)) k
            * x7 (ix2 k q) : EReal) := by
  unfold k0_pay2
  refine (matmulB_apply _ _ r q).trans ?_
  refine Finset.sum_congr rfl fun k _ => ?_
  simp only [truncf_apply, maximumf_apply, addf_apply, broadcast_apply, shapeCast_self, matmulA_apply, bias128_apply,
    scalar_zero_bf16, scalar_zero_f32, Cert.EdgeHead.hid1]

/-- The stored block, from the second product `v30` and the spread second bias `v33`: at entry (r, 0), the logistic
    of the sum over k of relu (v30 + v33)(r,k) times the third weight at k, plus the third bias. -/
theorem k0_pay1_apply (v30 v33 : FVec Ideal S8000x25 .f32) (x9 : Vec Ideal S25x1 .bf16) (x10 : Vec Ideal S1x1 .f32) (r : Fin 8000) :
    k0_pay1 (F := Ideal) v30 v33 x9 x10 (ix2 r (0 : Fin 1))
      = Ideal.logistic ((∑ k : Fin 25, (max (v30 (ix2 r k) + v33 (ix2 r k)) 0 * x9 (ix2 k (0 : Fin 1)) : EReal))
          + x10 (ix2 (0 : Fin 1) (0 : Fin 1))) := by
  unfold k0_pay1
  simp only [logistic_apply, addf_apply, matmulC_apply, bias1_apply, truncf_apply, maximumf_apply, broadcast_apply, shapeCast_self,
    scalar_zero_f32]

/-! ## The stored buffer at an entry -/

/-- The offsets of a whole-block rectangle are all zero. -/
theorem zero_offsets : (![0, 0] : Fin 2 → Nat) = fun _ => 0 := funext fun a => by fin_cases a <;> rfl

/-- THE FIRST LAUNCH'S STORED BLOCK: every load reads its whole block and the one store covers the whole buffer, so
    entry (r, 0) is the score of row r of the three input blocks under the loaded weights. -/
theorem out0_11_apply (x0 x1 x2 : Vec Ideal S8000x128 .bf16) (x3 x4 x5 : Vec Ideal S128x128 .bf16) (x6 : Vec Ideal S1x128 .f32) (x7 : Vec Ideal S128x25 .bf16) (x8 : Vec Ideal S1x25 .f32) (x9 : Vec Ideal S25x1 .bf16) (x10 : Vec Ideal S1x1 .f32) (r : Fin 8000) :
    out0_11 (F := Ideal) x0 x1 x2 x3 x4 x5 x6 x7 x8 x9 x10 (ix2 r (0 : Fin 1))
      = Cert.EdgeHead.rowScore (fun k => x0 (ix2 r k)) (fun k => x1 (ix2 r k)) (fun k => x2 (ix2 r k))
          (fun k q => x3 (ix2 k q)) (fun k q => x4 (ix2 k q)) (fun k q => x5 (ix2 k q)) (fun q => x6 (ix2 (0 : Fin 1) q))
          (fun k q => x7 (ix2 k q)) (fun q => x8 (ix2 (0 : Fin 1) q)) (fun k => x9 (ix2 k (0 : Fin 1))) (x10 (ix2 (0 : Fin 1) (0 : Fin 1))) := by
  unfold out0_11
  rw [View.canon_unit_zero zero_offsets]
  simp only [View.ld_unit_zero (S := S8000x128) zero_offsets, View.ld_unit_zero (S := S128x128) zero_offsets,
    View.ld_unit_zero (S := S1x128) zero_offsets, View.ld_unit_zero (S := S128x25) zero_offsets,
    View.ld_unit_zero (S := S1x25) zero_offsets, View.ld_unit_zero (S := S25x1) zero_offsets,
    View.ld_unit_zero (S := S1x1) zero_offsets]
  refine (k0_pay1_apply _ _ x9 x10 r).trans ?_
  simp only [k0_pay2_apply, k0_pay3_apply]
  rfl

/-- The second launch's body is the same arithmetic: its stored block is the same function of its loads. -/
theorem out1_11_eq_out0_11 (x0 x1 x2 : Vec Ideal S8000x128 .bf16) (x3 x4 x5 : Vec Ideal S128x128 .bf16) (x6 : Vec Ideal S1x128 .f32) (x7 : Vec Ideal S128x25 .bf16) (x8 : Vec Ideal S1x25 .f32) (x9 : Vec Ideal S25x1 .bf16) (x10 : Vec Ideal S1x1 .f32) :
    out1_11 (F := Ideal) x0 x1 x2 x3 x4 x5 x6 x7 x8 x9 x10 = out0_11 (F := Ideal) x0 x1 x2 x3 x4 x5 x6 x7 x8 x9 x10 := rfl

/-- THE SECOND LAUNCH'S STORED BLOCK: entry (r, 0) is the score of row r of its three input blocks. -/
theorem out1_11_apply (x0 x1 x2 : Vec Ideal S8000x128 .bf16) (x3 x4 x5 : Vec Ideal S128x128 .bf16) (x6 : Vec Ideal S1x128 .f32) (x7 : Vec Ideal S128x25 .bf16) (x8 : Vec Ideal S1x25 .f32) (x9 : Vec Ideal S25x1 .bf16) (x10 : Vec Ideal S1x1 .f32) (r : Fin 8000) :
    out1_11 (F := Ideal) x0 x1 x2 x3 x4 x5 x6 x7 x8 x9 x10 (ix2 r (0 : Fin 1))
      = Cert.EdgeHead.rowScore (fun k => x0 (ix2 r k)) (fun k => x1 (ix2 r k)) (fun k => x2 (ix2 r k))
          (fun k q => x3 (ix2 k q)) (fun k q => x4 (ix2 k q)) (fun k q => x5 (ix2 k q)) (fun q => x6 (ix2 (0 : Fin 1) q))
          (fun k q => x7 (ix2 k q)) (fun q => x8 (ix2 (0 : Fin 1) q)) (fun k => x9 (ix2 k (0 : Fin 1))) (x10 (ix2 (0 : Fin 1) (0 : Fin 1))) :=
  (congrFun (out1_11_eq_out0_11 x0 x1 x2 x3 x4 x5 x6 x7 x8 x9 x10) (ix2 r (0 : Fin 1))).trans
    (out0_11_apply x0 x1 x2 x3 x4 x5 x6 x7 x8 x9 x10 r)

end Cert.KernelIdeal.Payload

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.KernelBridge.lean ====
/-
  The two results of the kernel program as the edge scores of the arguments.

  Each launch leaves in its output the row-wise scores of the arrays it found (the launch modules), in the launch's
  operand layout: the first weight as three bands, each bias as a one-row array. Reading a band of the whole first weight
  at (k, q) gives the weight at (k, q), (128 + k, q) or (256 + k, q), and reading a one-row bias at (0, q) gives the bias
  at q; so in terms of the whole weight and the bias vectors the output is `scores`. The arrays the launches find are
  the reference's gathers and the arguments themselves (the boundary module).
-/
import proofs.«179008_j46574625358326_1_alg».proof.Proof.Boundary
import proofs.«179008_j46574625358326_1_alg».proof.Proof.KernelValueFirst
import proofs.«179008_j46574625358326_1_alg».proof.Proof.KernelValueSecond
import proofs.«179008_j46574625358326_1_alg».proof.Proof.Payload
import proofs.«179008_j46574625358326_1_alg».proof.Proof.LibRowOfVector

set_option maxRecDepth 16384

noncomputable section

namespace Cert.KernelIdeal.Bridge

open Cert.KernelIdeal Cert.KernelIdeal.Gen Cert.KernelIdeal.Boundary Cert.KernelIdeal.RegionValue
open Idealize.ShloMosaic Idealize.ShloMosaic.TcCoe Idealize.ShloMosaic.ValueIdx Idealize.SL.Sem Idealize.ShloMosaic.StableHlo
open Cert.EdgeHead (band0 band1 band2 scores)

/-- The launch's operand layout against the arguments' own: bands of the whole first weight, one-row biases of the
    bias vectors. -/
theorem scoresK_eq_scores (xs xd ea : S400000x128.Idx → EReal) (W1 : S384x128.Idx → EReal) (b1 : S128.Idx → EReal)
    (W2 : S128x25.Idx → EReal) (b2 : S25.Idx → EReal) (W3 : S25x1.Idx → EReal) (b3 : S1.Idx → EReal) :
    scoresK xs xd ea (extractStridedSlice S128x128 ![0, 0] W1 slices_S384x128_S128x128_0_0)
      (extractStridedSlice S128x128 ![128, 0] W1 slices_S384x128_S128x128_128_0)
      (extractStridedSlice S128x128 ![256, 0] W1 slices_S384x128_S128x128_256_0)
      (shapeCast S1x128 b1 shapeCasts_S128_S1x128) W2 (shapeCast S1x25 b2 shapeCasts_S25_S1x25) W3
      (shapeCast S1x1 b3 shapeCasts_S1_S1x1)
    = scores xs xd ea W1 b1 W2 b2 W3 b3 := by
  have hA : ∀ k q : Fin 128, extractStridedSlice S128x128 ![0, 0] W1 slices_S384x128_S128x128_0_0 (ix2 k q) = W1 (ix2 (band0 k) q) :=
    fun k q => extractStridedSlice_apply ![0, 0] W1 slices_S384x128_S128x128_0_0 (ix2 k q) (ix2 (band0 k) q) (fun a => by
      match a with
      | ⟨0, _⟩ => show k.val = 0 + k.val; omega
      | ⟨1, _⟩ => show q.val = 0 + q.val; omega)
  have hB : ∀ k q : Fin 128, extractStridedSlice S128x128 ![128, 0] W1 slices_S384x128_S128x128_128_0 (ix2 k q) = W1 (ix2 (band1 k) q) :=
    fun k q => extractStridedSlice_apply ![128, 0] W1 slices_S384x128_S128x128_128_0 (ix2 k q) (ix2 (band1 k) q) (fun a => by
      match a with
      | ⟨0, _⟩ => show 128 + k.val = 128 + k.val; rfl
      | ⟨1, _⟩ => show q.val = 0 + q.val; omega)
  have hC : ∀ k q : Fin 128, extractStridedSlice S128x128 ![256, 0] W1 slices_S384x128_S128x128_256_0 (ix2 k q) = W1 (ix2 (band2 k) q) :=
    fun k q => extractStridedSlice_apply ![256, 0] W1 slices_S384x128_S128x128_256_0 (ix2 k q) (ix2 (band2 k) q) (fun a => by
      match a with
      | ⟨0, _⟩ => show 256 + k.val = 256 + k.val; rfl
      | ⟨1, _⟩ => show q.val = 0 + q.val; omega)
  have h1 : ∀ q : Fin 128, shapeCast S1x128 b1 shapeCasts_S128_S1x128 (ix2 (0 : Fin 1) q) = b1 (ix1 q) :=
    fun q => RowOfVector.apply b1 shapeCasts_S128_S1x128 q
  have h2 : ∀ q : Fin 25, shapeCast S1x25 b2 shapeCasts_S25_S1x25 (ix2 (0 : Fin 1) q) = b2 (ix1 q) :=
    fun q => RowOfVector.apply b2 shapeCasts_S25_S1x25 q
  have h3 : shapeCast S1x1 b3 shapeCasts_S1_S1x1 (ix2 (0 : Fin 1) (0 : Fin 1)) = b3 (ix1 (0 : Fin 1)) :=
    RowOfVector.apply b3 shapeCasts_S1_S1x1 0
  funext i
  unfold scoresK scores
  simp only [hA, hB, hC, h1, h2, h3]

variable (m : (ℓ : Loc nD τ sig) → Buf (Elt Ideal) ℓ) (ρ : Dev nD → PrngReg)

/-- The first result: the scores of the positive edges. -/
theorem value_pos (c : Dev nD) : (W4 m ρ c (Proc.devRef .tc main_v29) : S400000x1.Idx → EReal)
    = scores (Cert.ReferenceIdeal.Read.val_main_v8 (F := Ideal) (m ((c : Thread nD τ).loc main_arg0)) (m ((c : Thread nD τ).loc main_arg1)))
        (Cert.ReferenceIdeal.Read.val_main_v17 (F := Ideal) (m ((c : Thread nD τ).loc main_arg0)) (m ((c : Thread nD τ).loc main_arg1)))
        (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e1 : W4 m ρ c (Proc.devRef .tc main_v29) = W3 m ρ c (Proc.devRef .tc main_v29) := W4_of_ne m ρ c main_v29 (by decide)
  have e2 : W3 m ρ c (Proc.devRef .tc main_v29) = W2 m ρ c (Proc.devRef .tc main_v29) := by
    show StableHlo.after hostOps1 (W2 m ρ c) (Proc.devRef .tc main_v29) = _
    dsimp only [hostOps1]
    after_results_simp
  have e3 : W2 m ρ c (Proc.devRef .tc main_v29) = (dat0 (V1 m ρ) c).arrAt 11 cfg0.N := W2_arr m ρ c 11
  refine (e1.trans (e2.trans e3)).trans ?_
  rw [final0 (V1 m ρ) Cert.KernelIdeal.Payload.out0_11_apply c, first_src, first_dst, first_attr, bandA, bandB, bandC, biasRow1,
    weight2, biasRow2, weight3, biasRow3]
  exact scoresK_eq_scores _ _ _ _ _ _ _ _ _

/-- The second result: the scores of the negative edges. -/
theorem value_neg (c : Dev nD) : (W4 m ρ c (Proc.devRef .tc main_v49) : S400000x1.Idx → EReal)
    = scores (Cert.ReferenceIdeal.Read.val_main_v49 (F := Ideal) (m ((c : Thread nD τ).loc main_arg0)) (m ((c : Thread nD τ).loc main_arg3)))
        (Cert.ReferenceIdeal.Read.val_main_v58 (F := Ideal) (m ((c : Thread nD τ).loc main_arg0)) (m ((c : Thread nD τ).loc main_arg3)))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 11).trans ?_
  rw [final1 (V3 m ρ) Cert.KernelIdeal.Payload.out1_11_apply c, second_src, second_dst, second_attr, second_main_v4, second_main_v5,
    second_main_v6, second_main_v7, second_main_v2, second_main_v8, second_main_v3, second_main_v9, bandA, bandB, bandC, biasRow1,
    weight2, biasRow2, weight3, biasRow3]
  exact scoresK_eq_scores _ _ _ _ _ _ _ _ _

end Cert.KernelIdeal.Bridge

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.RefValue.lean ====
/-
  The reference's two score arrays are the edge-scoring head of the specification.

  At the exact instance every operation of the reference is the extended reals' own. Read at the entry (R, 0), the
  last array of a branch is 1 / (1 + exp (-t)), the logistic of t, once the pattern 0x3F800000 is the number one;
  t is the third layer's sum over 25 terms plus its bias; the second hidden layer is max (· + bias) 0 of a sum over 128
  terms; the first is max (· + bias) 0 of a sum over the 384 columns of the joined row. The joined row is two arrays
  side by side twice over: columns 0..127 are max (source feature) 0, columns 128..255 are max (target feature) 0 and
  columns 256..383 are the edge's own attributes, so the sum over 384 splits into the three band sums of the
  specification. The second branch is the same program text applied to the other edge set, so its statement is the
  first one's at other arguments.
-/
import proofs.«179008_j46574625358326_1_alg».proof.Proof.Gen.ReferenceIdeal.Read
import proofs.«179008_j46574625358326_1_alg».proof.Proof.Spec
import proofs.«179008_j46574625358326_1_alg».proof.Proof.LibSideBySide

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.EdgeHead

/-! ## The two literals -/

/-- The pattern 0x3F800000 denotes the number one: sign 0, exponent 127 (the bias), fraction 0. -/
theorem ofBits_one_f32 : Ideal.ofBits .f32 0x3F800000#32 = 1 := by
  simp [Ideal.ofBits, Ideal.ieee, -EReal.coe_mul]; norm_num

/-- The zero the first rectifier compares with. -/
theorem zero256 (i : S400000x256.Idx) : val_main_call0_v0 (F := Ideal) i = (0 : EReal) := by
  rw [val_main_call0_v0_apply, val_main_call0_cst_apply]; exact Ideal.ofBits_zero_f32

/-- The zero the second rectifier compares with. -/
theorem zero128 (i : S400000x128.Idx) : val_main_call1_v0 (F := Ideal) i = (0 : EReal) := by
  rw [val_main_call1_v0_apply, val_main_call1_cst_apply]; exact Ideal.ofBits_zero_f32

/-- The zero the third rectifier compares with. -/
theorem zero25 (i : S400000x25.Idx) : val_main_call2_v0 (F := Ideal) i = (0 : EReal) := by
  rw [val_main_call2_v0_apply, val_main_call2_cst_apply]; exact Ideal.ofBits_zero_f32

/-- The one added to the exponential. -/
theorem one37 (i : S400000x1.Idx) : val_main_v37 (F := Ideal) i = (1 : EReal) := by
  rw [val_main_v37_apply, val_main_cst_apply]; exact ofBits_one_f32

/-- The one that is divided. -/
theorem one39 (i : S400000x1.Idx) : val_main_v39 (F := Ideal) i = (1 : EReal) := by
  rw [val_main_v39_apply, val_main_cst_3_apply]; exact ofBits_one_f32

section Rows

variable (x0 : (⟨S100000x128, .f32⟩ : BufTy).Contents (Elt Ideal)) (x1 : (⟨S2x400000, .i32⟩ : BufTy).Contents (Elt Ideal))
  (x2 : (⟨S400000x128, .f32⟩ : BufTy).Contents (Elt Ideal)) (x5 : (⟨S384x128, .f32⟩ : BufTy).Contents (Elt Ideal))
  (x6 : (⟨S128, .f32⟩ : BufTy).Contents (Elt Ideal)) (x7 : (⟨S128x25, .f32⟩ : BufTy).Contents (Elt Ideal))
  (x8 : (⟨S25, .f32⟩ : BufTy).Contents (Elt Ideal)) (x9 : (⟨S25x1, .f32⟩ : BufTy).Contents (Elt Ideal))
  (x10 : (⟨S1, .f32⟩ : BufTy).Contents (Elt Ideal))

/-! ## The joined row, band by band -/

/-- Columns 0..127 of the joined row: the rectified source features (left of the outer join, left of the inner). -/
theorem joined_band0 (R : Fin 400000) (k : Fin 128) :
    val_main_v20 (F := Ideal) x0 x1 x2 (ix2 R (band0 k)) = max (val_main_v8 (F := Ideal) x0 x1 (ix2 R k)) (0 : EReal) := by
  have hk : k.val < 256 := by omega
  have h18 : val_main_v18 (F := Ideal) x0 x1 (ix2 R (⟨k.val, hk⟩ : Fin 256)) = val_main_v8 (F := Ideal) x0 x1 (ix2 R k) :=
    SideBySide.apply_left (val_main_v8 (F := Ideal) x0 x1) (val_main_v17 (F := Ideal) x0 x1)
      concatenates_S400000x128_S400000x128_S400000x256_d1 R (⟨k.val, hk⟩ : Fin 256) k.isLt
  calc val_main_v20 (F := Ideal) x0 x1 x2 (ix2 R (band0 k))
      = val_main_v19 (F := Ideal) x0 x1 (ix2 R (⟨k.val, hk⟩ : Fin 256)) :=
        SideBySide.apply_left (val_main_v19 (F := Ideal) x0 x1) x2 concatenates_S400000x256_S400000x128_S400000x384_d1 R (band0 k) hk
    _ = max (val_main_v18 (F := Ideal) x0 x1 (ix2 R (⟨k.val, hk⟩ : Fin 256))) (val_main_call0_v0 (F := Ideal) (ix2 R (⟨k.val, hk⟩ : Fin 256))) := rfl
    _ = max (val_main_v8 (F := Ideal) x0 x1 (ix2 R k)) (0 : EReal) := by rw [h18, zero256]

/-- Columns 128..255 of the joined row: the rectified target features (left of the outer join, right of the inner). -/
theorem joined_band1 (R : Fin 400000) (k : Fin 128) :
    val_main_v20 (F := Ideal) x0 x1 x2 (ix2 R (band1 k)) = max (val_main_v17 (F := Ideal) x0 x1 (ix2 R k)) (0 : EReal) := by
  have hk : 128 + k.val < 256 := by omega
  have hb : 128 + k.val - 128 < 128 := by omega
  have e : (⟨128 + k.val - 128, hb⟩ : Fin 128) = k := Fin.ext (by show 128 + k.val - 128 = k.val; omega)
  have h18 : val_main_v18 (F := Ideal) x0 x1 (ix2 R (⟨128 + k.val, hk⟩ : Fin 256)) = val_main_v17 (F := Ideal) x0 x1 (ix2 R k) :=
    (SideBySide.apply_right (val_main_v8 (F := Ideal) x0 x1) (val_main_v17 (F := Ideal) x0 x1)
      concatenates_S400000x128_S400000x128_S400000x256_d1 R (⟨128 + k.val, hk⟩ : Fin 256) (Nat.le_add_right 128 k.val) hb).trans
      (congrArg (fun t : Fin 128 => val_main_v17 (F := Ideal) x0 x1 (ix2 R t)) e)
  calc val_main_v20 (F := Ideal) x0 x1 x2 (ix2 R (band1 k))
      = val_main_v19 (F := Ideal) x0 x1 (ix2 R (⟨128 + k.val, hk⟩ : Fin 256)) :=
        SideBySide.apply_left (val_main_v19 (F := Ideal) x0 x1) x2 concatenates_S400000x256_S400000x128_S400000x384_d1 R (band1 k) hk
    _ = max (val_main_v18 (F := Ideal) x0 x1 (ix2 R (⟨128 + k.val, hk⟩ : Fin 256))) (val_main_call0_v0 (F := Ideal) (ix2 R (⟨128 + k.val, hk⟩ : Fin 256))) := rfl
    _ = max (val_main_v17 (F := Ideal) x0 x1 (ix2 R k)) (0 : EReal) := by rw [h18, zero256]

/-- Columns 256..383 of the joined row: the edge's own attributes (right of the outer join). -/
theorem joined_band2 (R : Fin 400000) (k : Fin 128) :
    val_main_v20 (F := Ideal) x0 x1 x2 (ix2 R (band2 k)) = x2 (ix2 R k) := by
  have hb : 256 + k.val - 256 < 128 := by omega
  have e : (⟨256 + k.val - 256, hb⟩ : Fin 128) = k := Fin.ext (by show 256 + k.val - 256 = k.val; omega)
  exact (SideBySide.apply_right (val_main_v19 (F := Ideal) x0 x1) x2 concatenates_S400000x256_S400000x128_S400000x384_d1 R (band2 k)
      (Nat.le_add_right 256 k.val) hb).trans (congrArg (fun t : Fin 128 => x2 (ix2 R t)) e)

/-! ## The three layers, one row at a time -/

/-- The first hidden layer of row R: the sum over the 384 joined columns, split into its three bands. -/
theorem layer1 (R : Fin 400000) :
    (fun q : Fin 128 => val_main_v25 (F := Ideal) x0 x1 x2 x5 x6 (ix2 R q))
      = hid1 (fun k => val_main_v8 (F := Ideal) x0 x1 (ix2 R k)) (fun k => val_main_v17 (F := Ideal) x0 x1 (ix2 R k)) (fun k => x2 (ix2 R k))
          (fun k q => x5 (ix2 (band0 k) q)) (fun k q => x5 (ix2 (band1 k) q)) (fun k q => x5 (ix2 (band2 k) q)) (fun q => x6 (ix1 q)) := by
  funext q
  have el : ∀ k : Fin 384, lidx_main_v21 (ix2 R q) k = ix2 R k := fun k => funext fun a => by
    match a with
    | ⟨0, _⟩ => rfl
    | ⟨1, _⟩ => rfl
  have er : ∀ k : Fin 384, ridx_main_v21 (ix2 R q) k = ix2 k q := fun k => funext fun a => by
    match a with
    | ⟨0, _⟩ => rfl
    | ⟨1, _⟩ => rfl
  have eb : idx_main_v22 (idx_main_v23 (ix2 R q)) = ix1 q := funext fun a => by
    match a with
    | ⟨0, _⟩ => rfl
  have hdot : val_main_v21 (F := Ideal) x0 x1 x2 x5 (ix2 R q)
      = ((∑ k : Fin 128, max (val_main_v8 (F := Ideal) x0 x1 (ix2 R k)) (0 : EReal) * x5 (ix2 (band0 k) q))
          + ∑ k : Fin 128, max (val_main_v17 (F := Ideal) x0 x1 (ix2 R k)) (0 : EReal) * x5 (ix2 (band1 k) q))
          + ∑ k : Fin 128, x2 (ix2 R k) * x5 (ix2 (band2 k) q) := by
    refine (val_main_v21_apply x0 x1 x2 x5 (ix2 R q)).trans ((sum_bands _).trans ?_)
    refine congrArg₂ (· + ·) (congrArg₂ (· + ·) (Finset.sum_congr rfl fun k _ => ?_) (Finset.sum_congr rfl fun k _ => ?_))
      (Finset.sum_congr rfl fun k _ => ?_)
    · rw [el, er, joined_band0]
    · rw [el, er, joined_band1]
    · rw [el, er, joined_band2]
  have hbias : val_main_v23 (F := Ideal) x6 (ix2 R q) = x6 (ix1 q) := by
    rw [val_main_v23_apply, val_main_v22_apply, eb]
  calc val_main_v25 (F := Ideal) x0 x1 x2 x5 x6 (ix2 R q)
      = max (val_main_v21 (F := Ideal) x0 x1 x2 x5 (ix2 R q) + val_main_v23 (F := Ideal) x6 (ix2 R q)) (val_main_call1_v0 (F := Ideal) (ix2 R q)) := rfl
    _ = max ((((∑ k : Fin 128, max (val_main_v8 (F := Ideal) x0 x1 (ix2 R k)) (0 : EReal) * x5 (ix2 (band0 k) q))
          + ∑ k : Fin 128, max (val_main_v17 (F := Ideal) x0 x1 (ix2 R k)) (0 : EReal) * x5 (ix2 (band1 k) q))
          + ∑ k : Fin 128, x2 (ix2 R k) * x5 (ix2 (band2 k) q)) + x6 (ix1 q)) (0 : EReal) := by rw [hdot, hbias, zero128]

/-- The second hidden layer of row R. -/
theorem layer2 (R : Fin 400000) :
    (fun q : Fin 25 => val_main_v30 (F := Ideal) x0 x1 x2 x5 x6 x7 x8 (ix2 R q))
      = hid2 (fun k => val_main_v25 (F := Ideal) x0 x1 x2 x5 x6 (ix2 R k)) (fun k q => x7 (ix2 k q)) (fun q => x8 (ix1 q)) := by
  funext q
  have el : ∀ k : Fin 128, lidx_main_v26 (ix2 R q) k = ix2 R k := fun k => funext fun a => by
    match a with
    | ⟨0, _⟩ => rfl
    | ⟨1, _⟩ => rfl
  have er : ∀ k : Fin 128, ridx_main_v26 (ix2 R q) k = ix2 k q := fun k => funext fun a => by
    match a with
    | ⟨0, _⟩ => rfl
    | ⟨1, _⟩ => rfl
  have eb : idx_main_v27 (idx_main_v28 (ix2 R q)) = ix1 q := funext fun a => by
    match a with
    | ⟨0, _⟩ => rfl
  have hdot : val_main_v26 (F := Ideal) x0 x1 x2 x5 x6 x7 (ix2 R q)
      = ∑ k : Fin 128, val_main_v25 (F := Ideal) x0 x1 x2 x5 x6 (ix2 R k) * x7 (ix2 k q) := by
    refine (val_main_v26_apply x0 x1 x2 x5 x6 x7 (ix2 R q)).trans (Finset.sum_congr rfl fun k _ => ?_)
    rw [el, er]
  have hbias : val_main_v28 (F := Ideal) x8 (ix2 R q) = x8 (ix1 q) := by
    rw [val_main_v28_apply, val_main_v27_apply, eb]
  calc val_main_v30 (F := Ideal) x0 x1 x2 x5 x6 x7 x8 (ix2 R q)
      = max (val_main_v26 (F := Ideal) x0 x1 x2 x5 x6 x7 (ix2 R q) + val_main_v28 (F := Ideal) x8 (ix2 R q)) (val_main_call2_v0 (F := Ideal) (ix2 R q)) := rfl
    _ = max ((∑ k : Fin 128, val_main_v25 (F := Ideal) x0 x1 x2 x5 x6 (ix2 R k) * x7 (ix2 k q)) + x8 (ix1 q)) (0 : EReal) := by
        rw [hdot, hbias, zero25]

/-- The score of row R: the logistic of the third layer's sum. -/
theorem layer3 (R : Fin 400000) :
    val_main_v40 (F := Ideal) x0 x1 x2 x5 x6 x7 x8 x9 x10 (ix2 R (0 : Fin 1))
      = score (fun k => val_main_v30 (F := Ideal) x0 x1 x2 x5 x6 x7 x8 (ix2 R k)) (fun k => x9 (ix2 k (0 : Fin 1))) (x10 (ix1 (0 : Fin 1))) := by
  have el : ∀ k : Fin 25, lidx_main_v31 (ix2 R (0 : Fin 1)) k = ix2 R k := fun k => funext fun a => by
    match a with
    | ⟨0, _⟩ => rfl
    | ⟨1, _⟩ => rfl
  have er : ∀ k : Fin 25, ridx_main_v31 (ix2 R (0 : Fin 1)) k = ix2 k (0 : Fin 1) := fun k => funext fun a => by
    match a with
    | ⟨0, _⟩ => rfl
    | ⟨1, _⟩ => rfl
  have eb : idx_main_v32 (idx_main_v33 (ix2 R (0 : Fin 1))) = ix1 (0 : Fin 1) := funext fun a => by
    match a with
    | ⟨0, _⟩ => rfl
  have hdot : val_main_v31 (F := Ideal) x0 x1 x2 x5 x6 x7 x8 x9 (ix2 R (0 : Fin 1))
      = ∑ k : Fin 25, val_main_v30 (F := Ideal) x0 x1 x2 x5 x6 x7 x8 (ix2 R k) * x9 (ix2 k (0 : Fin 1)) := by
    refine (val_main_v31_apply x0 x1 x2 x5 x6 x7 x8 x9 (ix2 R (0 : Fin 1))).trans (Finset.sum_congr rfl fun k _ => ?_)
    rw [el, er]
  have hbias : val_main_v33 (F := Ideal) x10 (ix2 R (0 : Fin 1)) = x10 (ix1 (0 : Fin 1)) := by
    rw [val_main_v33_apply, val_main_v32_apply, eb]
  have h34 : val_main_v34 (F := Ideal) x0 x1 x2 x5 x6 x7 x8 x9 x10 (ix2 R (0 : Fin 1))
      = (∑ k : Fin 25, val_main_v30 (F := Ideal) x0 x1 x2 x5 x6 x7 x8 (ix2 R k) * x9 (ix2 k (0 : Fin 1))) + x10 (ix1 (0 : Fin 1)) :=
    calc val_main_v34 (F := Ideal) x0 x1 x2 x5 x6 x7 x8 x9 x10 (ix2 R (0 : Fin 1))
        = val_main_v31 (F := Ideal) x0 x1 x2 x5 x6 x7 x8 x9 (ix2 R (0 : Fin 1)) + val_main_v33 (F := Ideal) x10 (ix2 R (0 : Fin 1)) := rfl
      _ = (∑ k : Fin 25, val_main_v30 (F := Ideal) x0 x1 x2 x5 x6 x7 x8 (ix2 R k) * x9 (ix2 k (0 : Fin 1))) + x10 (ix1 (0 : Fin 1)) := by
          rw [hdot, hbias]
  calc val_main_v40 (F := Ideal) x0 x1 x2 x5 x6 x7 x8 x9 x10 (ix2 R (0 : Fin 1))
      = Ideal.div (val_main_v39 (F := Ideal) (ix2 R (0 : Fin 1)))
          (val_main_v37 (F := Ideal) (ix2 R (0 : Fin 1)) + Ideal.exp (-(val_main_v34 (F := Ideal) x0 x1 x2 x5 x6 x7 x8 x9 x10 (ix2 R (0 : Fin 1))))) := rfl
    _ = Ideal.div (1 : EReal) ((1 : EReal) + Ideal.exp (-((∑ k : Fin 25, val_main_v30 (F := Ideal) x0 x1 x2 x5 x6 x7 x8 (ix2 R k) * x9 (ix2 k (0 : Fin 1))) + x10 (ix1 (0 : Fin 1))))) := by
        rw [one39, one37, h34]

/-- Row R of the first branch's output is the specification's score of row R. -/
theorem pos_row (R : Fin 400000) :
    val_main_v40 (F := Ideal) x0 x1 x2 x5 x6 x7 x8 x9 x10 (ix2 R (0 : Fin 1))
      = score (hid2 (hid1 (fun k => val_main_v8 (F := Ideal) x0 x1 (ix2 R k)) (fun k => val_main_v17 (F := Ideal) x0 x1 (ix2 R k)) (fun k => x2 (ix2 R k))
          (fun k q => x5 (ix2 (band0 k) q)) (fun k q => x5 (ix2 (band1 k) q)) (fun k q => x5 (ix2 (band2 k) q)) (fun q => x6 (ix1 q)))
          (fun k q => x7 (ix2 k q)) (fun q => x8 (ix1 q))) (fun k => x9 (ix2 k (0 : Fin 1))) (x10 (ix1 (0 : Fin 1))) := by
  rw [layer3, layer2, layer1]

end Rows

/-! ## The two outputs -/

/-- The first branch's output is the score array of the positive edge set. -/
theorem pos_eq (x0 : (⟨S100000x128, .f32⟩ : BufTy).Contents (Elt Ideal)) (x1 : (⟨S2x400000, .i32⟩ : BufTy).Contents (Elt Ideal))
    (x2 : (⟨S400000x128, .f32⟩ : BufTy).Contents (Elt Ideal)) (x5 : (⟨S384x128, .f32⟩ : BufTy).Contents (Elt Ideal))
    (x6 : (⟨S128, .f32⟩ : BufTy).Contents (Elt Ideal)) (x7 : (⟨S128x25, .f32⟩ : BufTy).Contents (Elt Ideal))
    (x8 : (⟨S25, .f32⟩ : BufTy).Contents (Elt Ideal)) (x9 : (⟨S25x1, .f32⟩ : BufTy).Contents (Elt Ideal))
    (x10 : (⟨S1, .f32⟩ : BufTy).Contents (Elt Ideal)) :
    Read.val_main_v40 (F := Ideal) x0 x1 x2 x5 x6 x7 x8 x9 x10
      = Cert.EdgeHead.scores (Read.val_main_v8 (F := Ideal) x0 x1) (Read.val_main_v17 (F := Ideal) x0 x1) x2 x5 x6 x7 x8 x9 x10 := by
  funext i
  obtain ⟨R, c, rfl⟩ : ∃ (R : Fin 400000) (c : Fin 1), i = ix2 R c := ⟨i 0, i 1, eq_ix2 i⟩
  obtain rfl : c = 0 := Fin.fin_one_eq_zero c
  exact pos_row x0 x1 x2 x5 x6 x7 x8 x9 x10 R

/-- The second branch's output is the score array of the negative edge set: the second branch is the first one's
    program text at the other edge set's arguments. -/
theorem neg_eq (x0 : (⟨S100000x128, .f32⟩ : BufTy).Contents (Elt Ideal)) (x3 : (⟨S2x400000, .i32⟩ : BufTy).Contents (Elt Ideal))
    (x4 : (⟨S400000x128, .f32⟩ : BufTy).Contents (Elt Ideal)) (x5 : (⟨S384x128, .f32⟩ : BufTy).Contents (Elt Ideal))
    (x6 : (⟨S128, .f32⟩ : BufTy).Contents (Elt Ideal)) (x7 : (⟨S128x25, .f32⟩ : BufTy).Contents (Elt Ideal))
    (x8 : (⟨S25, .f32⟩ : BufTy).Contents (Elt Ideal)) (x9 : (⟨S25x1, .f32⟩ : BufTy).Contents (Elt Ideal))
    (x10 : (⟨S1, .f32⟩ : BufTy).Contents (Elt Ideal)) :
    Read.val_main_v81 (F := Ideal) x0 x3 x4 x5 x6 x7 x8 x9 x10
      = Cert.EdgeHead.scores (Read.val_main_v49 (F := Ideal) x0 x3) (Read.val_main_v58 (F := Ideal) x0 x3) x4 x5 x6 x7 x8 x9 x10 :=
  pos_eq x0 x3 x4 x5 x6 x7 x8 x9 x10

end Cert.ReferenceIdeal.RefValue

end
-- ==== Proof.lean ====
/-
  The kernel program scores 400000 positive and 400000 negative edges: for each edge it gathers the features of the
  edge's two end nodes, clamps them below at zero, and runs them with the edge's attributes through a three-layer
  perceptron and a logistic. It does so in two launches of 50 grid points of 8000 edges each, on bf16-narrowed copies,
  with the first weight cut into three bands of 128 rows whose three products are summed. The reference joins the two
  clamped feature rows and the attribute row into one row of 384 numbers and multiplies once by the whole weight.

  At the ideal instance narrowing is the identity and a product into a zero accumulator is a plain sum, so both
  programs compute, for every edge, `EdgeHead.rowScore` of the same three rows and the same weights: the kernel's sum of
  three band sums against the reference's one sum over 384 terms, which is the same sum regrouped (`EdgeHead.sum_bands`;
  it holds on all extended reals, so the precondition is never opened). The kernel side reads each launch's output
  array off the launch's blocks (they tile the output and each is a restriction of one whole-array function) and reads
  what the launch found back through the host operations; the reference side reads its run one operation at a time. The
  gathers are the same term in both programs and are never opened.

  The three frame claims are the generated frames (the reference's is its generated run with the results dropped); the
  idealization rewrote nothing, so there is nothing to preserve.
-/
import proofs.«179008_j46574625358326_1_alg».proof.Defs
import proofs.«179008_j46574625358326_1_alg».proof.Proof.Gen.Kernel
import proofs.«179008_j46574625358326_1_alg».proof.Proof.Gen.Kernel.Skeleton
import proofs.«179008_j46574625358326_1_alg».proof.Proof.Gen.Kernel.Launch
import proofs.«179008_j46574625358326_1_alg».proof.Proof.Gen.Kernel.Points
import proofs.«179008_j46574625358326_1_alg».proof.Proof.Gen.Kernel.Frame
import proofs.«179008_j46574625358326_1_alg».proof.Proof.Gen.KernelIdeal
import proofs.«179008_j46574625358326_1_alg».proof.Proof.Gen.KernelIdeal.Skeleton
import proofs.«179008_j46574625358326_1_alg».proof.Proof.Gen.KernelIdeal.Launch
import proofs.«179008_j46574625358326_1_alg».proof.Proof.Gen.KernelIdeal.Points
import proofs.«179008_j46574625358326_1_alg».proof.Proof.Gen.KernelIdeal.Frame
import proofs.«179008_j46574625358326_1_alg».proof.Proof.Gen.ReferenceIdeal
import proofs.«179008_j46574625358326_1_alg».proof.Proof.Gen.Pre_finite_inputs
import proofs.«179008_j46574625358326_1_alg».proof.Proof.Gen.ReferenceIdeal.Run
import proofs.«179008_j46574625358326_1_alg».proof.Proof.Gen.ReferenceIdeal.Read
import proofs.«179008_j46574625358326_1_alg».proof.Proof.KernelRun
import proofs.«179008_j46574625358326_1_alg».proof.Proof.KernelBridge
import proofs.«179008_j46574625358326_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- The idealized kernel runs and leaves its arguments as they were. -/
theorem frame_ideal : Cert.frame_KernelIdeal := fun m ρ _ => Cert.KernelIdeal.Gen.frame m ρ

/-- The idealized reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the positive edges' scores in their first result and the negative edges' in their second:
    `EdgeHead.scores` of the reference's gathers of the node features, the edge attributes and the weights. -/
theorem algebraic : Cert.algebraic_KernelIdeal_ReferenceIdeal := by
  intro m ρ m' ρ' _ hagree
  refine ⟨fun c => Cert.EdgeHead.scores
      (Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.EdgeHead.scores
      (Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.GenRun.run_results (F := Ideal) m ρ)
    obtain ⟨h29, h49, hargs⟩ := h c
    exact ⟨h29.trans (Cert.KernelIdeal.Bridge.value_pos m ρ c), h49.trans (Cert.KernelIdeal.Bridge.value_neg m ρ c), hargs⟩
  · refine (θ_run Cert.ReferenceIdeal.defs _ _).mono (fun r h c => ?_) (Cert.ReferenceIdeal.Value.run (F := Ideal) m' ρ')
    obtain ⟨h40, h81, hargs⟩ := h c
    obtain ⟨g0, g1, g2, g3, g4, g5, g6, g7, g8, g9, g10⟩ := hagree c
    refine ⟨?_, ?_, hargs⟩
    · refine ((h40.trans (Cert.ReferenceIdeal.Read.val_main_v40_eq _ _ _ _ _ _ _ _ _)).trans
        (Cert.ReferenceIdeal.RefValue.pos_eq _ _ _ _ _ _ _ _ _)).trans ?_
      rw [g0, g1, g2, g5, g6, g7, g8, g9, g10]
    · refine ((h81.trans (Cert.ReferenceIdeal.Read.val_main_v81_eq _ _ _ _ _ _ _ _ _)).trans
        (Cert.ReferenceIdeal.RefValue.neg_eq _ _ _ _ _ _ _ _ _)).trans ?_
      rw [g0, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
